-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x384 : Shape := ⟨2, ![2, 384]⟩
abbrev S769x128 : Shape := ⟨2, ![769, 128]⟩
abbrev S128x512 : Shape := ⟨2, ![128, 512]⟩
abbrev S128 : Shape := ⟨1, ![128]⟩
abbrev S_ : Shape := ⟨0, ![]⟩
abbrev S2x384x1 : Shape := ⟨3, ![2, 384, 1]⟩
abbrev S2x1x384 : Shape := ⟨3, ![2, 1, 384]⟩
abbrev S2x384x384 : Shape := ⟨3, ![2, 384, 384]⟩

class Facts : Prop where
  bcast_S_S769x128 : S_.BroadcastsInDim S769x128 (![] : Fin 0 → Fin S769x128.rank)
  reducesTo_S769x128_S_d0_1 : S769x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S2x384_S2x384x1_0_1 : S2x384.BroadcastsInDim S2x384x1 (![0, 1] : Fin 2 → Fin S2x384x1.rank)
  bcast_S2x384_S2x1x384_0_2 : S2x384.BroadcastsInDim S2x1x384 (![0, 2] : Fin 2 → Fin S2x1x384.rank)
  bcast_S2x384x1_S2x384x384_0_1_2 : S2x384x1.BroadcastsInDim S2x384x384 (![0, 1, 2] : Fin 3 → Fin S2x384x384.rank)
  bcast_S2x1x384_S2x384x384_0_1_2 : S2x1x384.BroadcastsInDim S2x384x384 (![0, 1, 2] : Fin 3 → Fin S2x384x384.rank)
  bcast_S_S2x384x384 : S_.BroadcastsInDim S2x384x384 (![] : Fin 0 → Fin S2x384x384.rank)
  reducesTo_S2x384x384_S_d0_1_2 : S2x384x384.ReducesTo [0, 1, 2] S_

variable [Facts]

def fn_part4 {F : FTy → Type} [FloatOps F] (main_v64 : IVec S_ 1) (main_v69 : IVec S2x384x384 32) (main_v71 : IVec S2x384x384 1) (main_v72 : IVec S2x384x384 32) : IVec S_ 1 :=
  let main_v73 : IVec S2x384x384 1 := cmpi .sle main_v69 main_v72
  let main_v74 : IVec S2x384x384 1 := andi main_v71 main_v73
  let main_c_21 : IVec S_ 1 := constantI S_ 1 1#1
  let main_v75 : IVec S_ 1 := (fun x v => Host.reduce IntOp.andi x v reducesTo_S2x384x384_S_d0_1_2 h_S_) main_v74 main_c_21
  let main_v76 : IVec S_ 1 := andi main_v64 main_v75
  main_v76

def fn_part3 {F : FTy → Type} [FloatOps F] (main_arg0 : IVec S2x384 32) (main_arg1 : IVec S2x384 32) (main_v52 : IVec S_ 1) (main_v53 : IVec S2x384x1 32) : IVec S_ 1 :=
  let main_v54 : IVec S2x1x384 32 := broadcastInDim S2x1x384 ![0, 2] bcast_S2x384_S2x1x384_0_2 main_arg0
  let main_v55 : IVec S2x384x384 32 := broadcastInDim S2x384x384 ![0, 1, 2] bcast_S2x384x1_S2x384x384_0_1_2 main_v53
  let main_v56 : IVec S2x384x384 32 := broadcastInDim S2x384x384 ![0, 1, 2] bcast_S2x1x384_S2x384x384_0_1_2 main_v54
  let main_v57 : IVec S2x384x384 32 := subi main_v55 main_v56
  let main_c_16 : IVec S_ 32 := constantI S_ 32 4294966913#32
  let main_v58 : IVec S2x384x384 32 := broadcastInDim S2x384x384 ![] bcast_S_S2x384x384 main_c_16
  let main_v59 : IVec S2x384x384 1 := cmpi .sge main_v57 main_v58
  let main_c_17 : IVec S_ 32 := constantI S_ 32 383#32
  let main_v60 : IVec S2x384x384 32 := broadcastInDim S2x384x384 ![] bcast_S_S2x384x384 main_c_17
  let main_v61 : IVec S2x384x384 1 := cmpi .sle main_v57 main_v60
  let main_v62 : IVec S2x384x384 1 := andi main_v59 main_v61
  let main_c_18 : IVec S_ 1 := constantI S_ 1 1#1
  let main_v63 : IVec S_ 1 := (fun x v => Host.reduce IntOp.andi x v reducesTo_S2x384x384_S_d0_1_2 h_S_) main_v62 main_c_18
  let main_v64 : IVec S_ 1 := andi main_v52 main_v63
  let main_v65 : IVec S2x384x1 32 := broadcastInDim S2x384x1 ![0, 1] bcast_S2x384_S2x384x1_0_1 main_arg1
  let main_v66 : IVec S2x1x384 32 := broadcastInDim S2x1x384 ![0, 2] bcast_S2x384_S2x1x384_0_2 main_arg1
  let main_v67 : IVec S2x384x384 32 := broadcastInDim S2x384x384 ![0, 1, 2] bcast_S2x384x1_S2x384x384_0_1_2 main_v65
  let main_v68 : IVec S2x384x384 32 := broadcastInDim S2x384x384 ![0, 1, 2] bcast_S2x1x384_S2x384x384_0_1_2 main_v66
  let main_v69 : IVec S2x384x384 32 := subi main_v67 main_v68
  let main_c_19 : IVec S_ 32 := constantI S_ 32 4294966913#32
  let main_v70 : IVec S2x384x384 32 := broadcastInDim S2x384x384 ![] bcast_S_S2x384x384 main_c_19
  let main_v71 : IVec S2x384x384 1 := cmpi .sge main_v69 main_v70
  let main_c_20 : IVec S_ 32 := constantI S_ 32 383#32
  let main_v72 : IVec S2x384x384 32 := broadcastInDim S2x384x384 ![] bcast_S_S2x384x384 main_c_20
  fn_part4 (F := F) main_v64 main_v69 main_v71 main_v72

def fn_part2 {F : FTy → Type} [FloatOps F] (main_arg0 : IVec S2x384 32) (main_arg1 : IVec S2x384 32) (main_v28 : IVec S_ 1) (main_v33 : IVec S2x384x384 32) (main_v34 : IVec S2x384x384 32) : IVec S_ 1 :=
  let main_v35 : IVec S2x384x384 1 := cmpi .sge main_v33 main_v34
  let main_c_11 : IVec S_ 32 := constantI S_ 32 383#32
  let main_v36 : IVec S2x384x384 32 := broadcastInDim S2x384x384 ![] bcast_S_S2x384x384 main_c_11
  let main_v37 : IVec S2x384x384 1 := cmpi .sle main_v33 main_v36
  let main_v38 : IVec S2x384x384 1 := andi main_v35 main_v37
  let main_c_12 : IVec S_ 1 := constantI S_ 1 1#1
  let main_v39 : IVec S_ 1 := (fun x v => Host.reduce IntOp.andi x v reducesTo_S2x384x384_S_d0_1_2 h_S_) main_v38 main_c_12
  let main_v40 : IVec S_ 1 := andi main_v28 main_v39
  let main_v41 : IVec S2x384x1 32 := broadcastInDim S2x384x1 ![0, 1] bcast_S2x384_S2x384x1_0_1 main_arg0
  let main_v42 : IVec S2x1x384 32 := broadcastInDim S2x1x384 ![0, 2] bcast_S2x384_S2x1x384_0_2 main_arg1
  let main_v43 : IVec S2x384x384 32 := broadcastInDim S2x384x384 ![0, 1, 2] bcast_S2x384x1_S2x384x384_0_1_2 main_v41
  let main_v44 : IVec S2x384x384 32 := broadcastInDim S2x384x384 ![0, 1, 2] bcast_S2x1x384_S2x384x384_0_1_2 main_v42
  let main_v45 : IVec S2x384x384 32 := subi main_v43 main_v44
  let main_c_13 : IVec S_ 32 := constantI S_ 32 4294966913#32
  let main_v46 : IVec S2x384x384 32 := broadcastInDim S2x384x384 ![] bcast_S_S2x384x384 main_c_13
  let main_v47 : IVec S2x384x384 1 := cmpi .sge main_v45 main_v46
  let main_c_14 : IVec S_ 32 := constantI S_ 32 383#32
  let main_v48 : IVec S2x384x384 32 := broadcastInDim S2x384x384 ![] bcast_S_S2x384x384 main_c_14
  let main_v49 : IVec S2x384x384 1 := cmpi .sle main_v45 main_v48
  let main_v50 : IVec S2x384x384 1 := andi main_v47 main_v49
  let main_c_15 : IVec S_ 1 := constantI S_ 1 1#1
  let main_v51 : IVec S_ 1 := (fun x v => Host.reduce IntOp.andi x v reducesTo_S2x384x384_S_d0_1_2 h_S_) main_v50 main_c_15
  let main_v52 : IVec S_ 1 := andi main_v40 main_v51
  let main_v53 : IVec S2x384x1 32 := broadcastInDim S2x384x1 ![0, 1] bcast_S2x384_S2x384x1_0_1 main_arg1
  fn_part3 (F := F) main_arg0 main_arg1 main_v52 main_v53

def fn_part1 {F : FTy → Type} [FloatOps F] (main_arg0 : IVec S2x384 32) (main_arg1 : IVec S2x384 32) (main_arg6 : FVec F S128x512 .f32) (main_arg7 : FVec F S128 .f32) (main_v13 : IVec S_ 1) (main_v16 : IVec S769x128 1) : IVec S_ 1 :=
  let main_c_5 : IVec S_ 1 := constantI S_ 1 1#1
  let main_v17 : IVec S_ 1 := (fun x v => Host.reduce IntOp.andi x v reducesTo_S769x128_S_d0_1 h_S_) main_v16 main_c_5
  let main_v18 : IVec S_ 1 := andi main_v13 main_v17
  let main_v19 : FVec F S128x512 .f32 := Host.absf main_arg6
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S2x384x1 32 := broadcastInDim S2x384x1 ![0, 1] bcast_S2x384_S2x384x1_0_1 main_arg0
  let main_v30 : IVec S2x1x384 32 := broadcastInDim S2x1x384 ![0, 2] bcast_S2x384_S2x1x384_0_2 main_arg0
  let main_v31 : IVec S2x384x384 32 := broadcastInDim S2x384x384 ![0, 1, 2] bcast_S2x384x1_S2x384x384_0_1_2 main_v29
  let main_v32 : IVec S2x384x384 32 := broadcastInDim S2x384x384 ![0, 1, 2] bcast_S2x1x384_S2x384x384_0_1_2 main_v30
  let main_v33 : IVec S2x384x384 32 := subi main_v31 main_v32
  let main_c_10 : IVec S_ 32 := constantI S_ 32 4294966913#32
  let main_v34 : IVec S2x384x384 32 := broadcastInDim S2x384x384 ![] bcast_S_S2x384x384 main_c_10
  fn_part2 (F := F) main_arg0 main_arg1 main_v28 main_v33 main_v34

def fn {F : FTy → Type} [FloatOps F] (main_arg0 : IVec S2x384 32) (main_arg1 : IVec S2x384 32) (main_arg2 : FVec F S769x128 .f32) (main_arg3 : FVec F S769x128 .f32) (main_arg4 : FVec F S769x128 .f32) (main_arg5 : FVec F S769x128 .f32) (main_arg6 : FVec F S128x512 .f32) (main_arg7 : FVec F S128 .f32) : IVec S_ 1 :=
  let main_v0 : FVec F S769x128 .f32 := Host.absf main_arg2
  let main_cst : FVec F S_ .f32 := constant S_ .f32 0x7F800000#32
  let main_v1 : FVec F S769x128 .f32 := broadcastInDim S769x128 ![] bcast_S_S769x128 main_cst
  let main_v2 : IVec S769x128 1 := cmpf .olt main_v0 main_v1
  let main_c : IVec S_ 1 := constantI S_ 1 1#1
  let main_v3 : IVec S_ 1 := (fun x v => Host.reduce IntOp.andi x v reducesTo_S769x128_S_d0_1 h_S_) main_v2 main_c
  let main_v4 : FVec F S769x128 .f32 := Host.absf main_arg3
  let main_cst_0 : FVec F S_ .f32 := constant S_ .f32 0x7F800000#32
  let main_v5 : FVec F S769x128 .f32 := broadcastInDim S769x128 ![] bcast_S_S769x128 main_cst_0
  let main_v6 : IVec S769x128 1 := cmpf .olt main_v4 main_v5
  let main_c_1 : IVec S_ 1 := constantI S_ 1 1#1
  let main_v7 : IVec S_ 1 := (fun x v => Host.reduce IntOp.andi x v reducesTo_S769x128_S_d0_1 h_S_) main_v6 main_c_1
  let main_v8 : IVec S_ 1 := andi main_v3 main_v7
  let main_v9 : FVec F S769x128 .f32 := Host.absf main_arg4
  let main_cst_2 : FVec F S_ .f32 := constant S_ .f32 0x7F800000#32
  let main_v10 : FVec F S769x128 .f32 := broadcastInDim S769x128 ![] bcast_S_S769x128 main_cst_2
  let main_v11 : IVec S769x128 1 := cmpf .olt main_v9 main_v10
  let main_c_3 : IVec S_ 1 := constantI S_ 1 1#1
  let main_v12 : IVec S_ 1 := (fun x v => Host.reduce IntOp.andi x v reducesTo_S769x128_S_d0_1 h_S_) main_v11 main_c_3
  let main_v13 : IVec S_ 1 := andi main_v8 main_v12
  let main_v14 : FVec F S769x128 .f32 := Host.absf main_arg5
  let main_cst_4 : FVec F S_ .f32 := constant S_ .f32 0x7F800000#32
  let main_v15 : FVec F S769x128 .f32 := broadcastInDim S769x128 ![] bcast_S_S769x128 main_cst_4
  let main_v16 : IVec S769x128 1 := cmpf .olt main_v14 main_v15
  fn_part1 (F := F) main_arg0 main_arg1 main_arg6 main_arg7 main_v13 main_v16
-- ==== Kernel.lean ====
abbrev S2x384 : Shape := ⟨2, ![2, 384]⟩
abbrev S769x128 : Shape := ⟨2, ![769, 128]⟩
abbrev S128x512 : Shape := ⟨2, ![128, 512]⟩
abbrev S128 : Shape := ⟨1, ![128]⟩
abbrev S2x384x1 : Shape := ⟨3, ![2, 384, 1]⟩
abbrev S128x128 : Shape := ⟨2, ![128, 128]⟩
abbrev S768x128 : Shape := ⟨2, ![768, 128]⟩
abbrev S2x384x384x128 : Shape := ⟨4, ![2, 384, 384, 128]⟩
abbrev S1x32x128x128 : Shape := ⟨4, ![1, 32, 128, 128]⟩
abbrev S1x384x1 : Shape := ⟨3, ![1, 384, 1]⟩
abbrev S384x1 : Shape := ⟨2, ![384, 1]⟩
abbrev S32x1 : Shape := ⟨2, ![32, 1]⟩
abbrev S32 : Shape := ⟨1, ![32]⟩
abbrev S128x1 : Shape := ⟨2, ![128, 1]⟩
abbrev S1x128 : Shape := ⟨2, ![1, 128]⟩
abbrev S32x128 : Shape := ⟨2, ![32, 128]⟩
abbrev S32x128x768 : Shape := ⟨3, ![32, 128, 768]⟩
abbrev S32x128x1 : Shape := ⟨3, ![32, 128, 1]⟩
abbrev S4096x768 : Shape := ⟨2, ![4096, 768]⟩
abbrev S4096x128 : Shape := ⟨2, ![4096, 128]⟩
abbrev S32x128x128 : Shape := ⟨3, ![32, 128, 128]⟩

abbrev nBuf : Space → Nat
  | .hbm => 31
  | .vmem => 9
  | .smem => 0
  | _ => 0

abbrev bufTy : (tb : Table) → Fin (tcTables nBuf tb) → BufTy
  | .hbm, ⟨0, _⟩ => ⟨S2x384, .i32⟩
  | .hbm, ⟨1, _⟩ => ⟨S2x384, .i32⟩
  | .hbm, ⟨2, _⟩ => ⟨S769x128, .f32⟩
  | .hbm, ⟨3, _⟩ => ⟨S769x128, .f32⟩
  | .hbm, ⟨4, _⟩ => ⟨S769x128, .f32⟩
  | .hbm, ⟨5, _⟩ => ⟨S769x128, .f32⟩
  | .hbm, ⟨6, _⟩ => ⟨S128x512, .f32⟩
  | .hbm, ⟨7, _⟩ => ⟨S128, .f32⟩
  | .hbm, ⟨8, _⟩ => ⟨S2x384x1, .i32⟩
  | .hbm, ⟨9, _⟩ => ⟨S2x384x1, .i32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S769x128, .f32⟩
  | .hbm, ⟨16, _⟩ => ⟨S128x128, .f32⟩
  | .hbm, ⟨17, _⟩ => ⟨S769x128, .f32⟩
  | .hbm, ⟨18, _⟩ => ⟨S128x128, .f32⟩
  | .hbm, ⟨19, _⟩ => ⟨S769x128, .f32⟩
  | .hbm, ⟨20, _⟩ => ⟨S128x128, .f32⟩
  | .hbm, ⟨21, _⟩ => ⟨S769x128, .f32⟩
  | .hbm, ⟨22, _⟩ => ⟨S768x128, .f32⟩
  | .hbm, ⟨23, _⟩ => ⟨S768x128, .bf16⟩
  | .hbm, ⟨24, _⟩ => ⟨S768x128, .f32⟩
  | .hbm, ⟨25, _⟩ => ⟨S768x128, .bf16⟩
  | .hbm, ⟨26, _⟩ => ⟨S768x128, .f32⟩
  | .hbm, ⟨27, _⟩ => ⟨S768x128, .bf16⟩
  | .hbm, ⟨28, _⟩ => ⟨S768x128, .f32⟩
  | .hbm, ⟨29, _⟩ => ⟨S768x128, .bf16⟩
  | .hbm, ⟨30, _⟩ => ⟨S2x384x384x128, .f32⟩
  | .local _ .vmem, ⟨0, _⟩ => ⟨S2x384x1, .i32⟩
  | .local _ .vmem, ⟨1, _⟩ => ⟨S2x384x1, .i32⟩
  | .local _ .vmem, ⟨2, _⟩ => ⟨S768x128, .bf16⟩
  | .local _ .vmem, ⟨3, _⟩ => ⟨S768x128, .bf16⟩
  | .local _ .vmem, ⟨4, _⟩ => ⟨S768x128, .bf16⟩
  | .local _ .vmem, ⟨5, _⟩ => ⟨S768x128, .bf16⟩
  | .local _ .vmem, ⟨6, _⟩ => ⟨S128, .f32⟩
  | .local _ .vmem, ⟨7, _⟩ => ⟨S1x32x128x128, .f32⟩
  | .local _ .vmem, ⟨8, _⟩ => ⟨S1x32x128x128, .f32⟩
  | _, _ => ⟨S2x384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨3, ![2, 12, 3], ![false, false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_mult2 (i : grid0.Coords) : BitVec 32 :=
  let arg2 : BitVec 32 := BitVec.ofNat 32 (i 2).val
  let c128_i32 : BitVec 32 := 128#32
  let v2 : BitVec 32 := Scalar.muli arg2 c128_i32
  v2
def k0_off1 (i : grid0.Coords) : Fin 3 → Nat :=
  let arg0 : BitVec 32 := BitVec.ofNat 32 (i 0).val
  let c0_i32 : BitVec 32 := 0#32
  let c0_i32_0 : BitVec 32 := 0#32
  ![arg0.toNat, 0, 0]
def k0_off2 (i : grid0.Coords) : Fin 2 → Nat :=
  let arg1 : BitVec 32 := BitVec.ofNat 32 (i 1).val
  let c32_i32 : BitVec 32 := 32#32
  let v0 : BitVec 32 := Scalar.muli arg1 c32_i32
  let v1 : BitVec 32 := v0
  let v6 : Index := Scalar.indexCast v1
  let c0 : Index := 0#32
  ![v6.toNat, 0]
def k0_off3 (i : grid0.Coords) : Fin 2 → Nat :=
  let arg2 : BitVec 32 := BitVec.ofNat 32 (i 2).val
  let c128_i32 : BitVec 32 := 128#32
  let v2 : BitVec 32 := Scalar.muli arg2 c128_i32
  let v3 : BitVec 32 := v2
  let v12 : Index := Scalar.indexCast v3
  let c0_3 : Index := 0#32
  ![v12.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S2x384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2x384x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S768x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S768x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S768x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  shapeCasts_S2x384_S2x384x1 : S2x384.ShapeCasts S2x384x1
  slices_S128x512_S128x128_0_0 : S128x512.Slices ![0, 0] S128x128
  slices_S128x512_S128x128_0_128 : S128x512.Slices ![0, 128] S128x128
  slices_S128x512_S128x128_0_256 : S128x512.Slices ![0, 256] S128x128
  slices_S128x512_S128x128_0_384 : S128x512.Slices ![0, 384] S128x128
  transposes_S128x128_S128x128_1_0 : S128x128.Transposes [1, 0] S128x128
  slices_S769x128_S768x128_0_0 : S769x128.Slices ![0, 0] S768x128
  bitsLt_bf16_f32 : FTy.bits .bf16 < FTy.bits .f32
  squeezes_S1x384x1_S384x1 : S1x384x1.Squeezes S384x1
  h_S32x1 : 0 < S32x1.numel
  shapeCasts_S32x1_S32x1 : S32x1.ShapeCasts S32x1
  shapeCasts_S32x1_S32 : S32x1.ShapeCasts S32
  h_S128x1 : 0 < S128x1.numel
  shapeCasts_S128x1_S128x1 : S128x1.ShapeCasts S128x1
  shapeCasts_S128x1_S128 : S128x1.ShapeCasts S128
  shapeCasts_S32_S32x1 : S32.ShapeCasts S32x1
  shapeCasts_S128_S1x128 : S128.ShapeCasts S1x128
  broadcasts_S32x1_S32x128 : S32x1.Broadcasts S32x128
  broadcasts_S1x128_S32x128 : S1x128.Broadcasts S32x128
  iota_S32x128x768_d2_w32 : S32x128x768.Iotas .tc 32 [2]
  shapeCasts_S32x128_S32x128x1 : S32x128.ShapeCasts S32x128x1
  broadcasts_S32x128x1_S32x128x768 : S32x128x1.Broadcasts S32x128x768
  natLt_1_32 : 1 < 32
  shapeCasts_S32x128x768_S4096x768 : S32x128x768.ShapeCasts S4096x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S128_S128_0 : ∀ a, (![0] : Fin 1 → Nat) a + S128.size a ≤ S128.size a
  h_S128 : 0 < S128.numel
  broadcasts_S1x128_S4096x128 : S1x128.Broadcasts S4096x128
  shapeCasts_S4096x128_S32x128x128 : S4096x128.ShapeCasts S32x128x128
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  dot_S769x128_S128x128_S769x128_1_0_0_1_n_n_wf : DotDims.WF S769x128 S128x128 S769x128 [1] [0] [0] [1] [] []
  dot_S4096x768_S768x128_S4096x128_1_0_0_1_n_n_wf : DotDims.WF S4096x768 S768x128 S4096x128 [1] [0] [0] [1] [] []
  hrank0 : 0 < grid0.rank
  k0_mult1_dvd : ∀ i : grid0.Coords, 32 ∣ (k0_mult1 i).toNat
  k0_mult2_dvd : ∀ i : grid0.Coords, 128 ∣ (k0_mult2 i).toNat
  k0_off1_inb : ∀ i : grid0.Coords, ∀ a, (k0_off1 i) a + S1x384x1.size a ≤ S2x384x1.size a
  k0_off2_inb : ∀ i : grid0.Coords, ∀ a, (k0_off2 i) a + S32x1.size a ≤ S384x1.size a
  k0_off3_inb : ∀ i : grid0.Coords, ∀ a, (k0_off3 i) a + S128x1.size a ≤ S384x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x384x1.size a ≤ S2x384x1.size a
  hwx0_0 : ∀ i : grid0.Coords, EltTy.bits .i32 = 32 ∨ (Rect.block (s := S2x384x1) S2x384x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x384x1.size a ≤ S2x384x1.size a
  hwx0_1 : ∀ i : grid0.Coords, EltTy.bits .i32 = 32 ∨ (Rect.block (s := S2x384x1) S2x384x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x128.size a ≤ S768x128.size a
  hwx0_2 : ∀ i : grid0.Coords, EltTy.bits .bf16 = 32 ∨ (Rect.block (s := S768x128) S768x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .bf16 = 32 ∨ (Rect.block (s := S768x128) S768x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x128.size a ≤ S768x128.size a
  hwx0_4 : ∀ i : grid0.Coords, EltTy.bits .bf16 = 32 ∨ (Rect.block (s := S768x128) S768x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x128.size a ≤ S768x128.size a
  hwx0_5 : ∀ i : grid0.Coords, EltTy.bits .bf16 = 32 ∨ (Rect.block (s := S768x128) S768x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x128x128.size a ≤ S2x384x384x128.size a
  hwx0_7 : ∀ i : grid0.Coords, EltTy.bits .f32 = 32 ∨ (Rect.block (s := S2x384x384x128) S1x32x128x128.size (cc0_transform_7 i) (hinb0_7 i)).WholeWords (EltTy.packing .f32)

variable [Facts₀]

def dot_S769x128_S128x128_S769x128_1_0_0_1_n_n : DotDims S769x128 S128x128 S769x128 where
  lhsContracting := [1]
  rhsContracting := [0]
  lhsNonContracting := [0]
  rhsNonContracting := [1]
  lhsBatch := []
  rhsBatch := []
  wf := dot_S769x128_S128x128_S769x128_1_0_0_1_n_n_wf
def dot_S4096x768_S768x128_S4096x128_1_0_0_1_n_n : DotDims S4096x768 S768x128 S4096x128 where
  lhsContracting := [1]
  rhsContracting := [0]
  lhsNonContracting := [0]
  rhsNonContracting := [1]
  lhsBatch := []
  rhsBatch := []
  wf := dot_S4096x768_S768x128_S4096x128_1_0_0_1_n_n_wf

abbrev win0_0 : Pipeline.Window sig grid0 :=
  Pipeline.Window.ofSpec (Memref.whole main_v0) S2x384x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x384x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S768x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S768x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S768x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x32x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x384 : Shape := ⟨2, ![2, 384]⟩
abbrev S769x128 : Shape := ⟨2, ![769, 128]⟩
abbrev S128x512 : Shape := ⟨2, ![128, 512]⟩
abbrev S128 : Shape := ⟨1, ![128]⟩
abbrev S2x384x1 : Shape := ⟨3, ![2, 384, 1]⟩
abbrev S2x1x384 : Shape := ⟨3, ![2, 1, 384]⟩
abbrev S2x384x384 : Shape := ⟨3, ![2, 384, 384]⟩
abbrev S_ : Shape := ⟨0, ![]⟩
abbrev S2x384x384x1 : Shape := ⟨4, ![2, 384, 384, 1]⟩
abbrev S2x384x384x128 : Shape := ⟨4, ![2, 384, 384, 128]⟩
abbrev S2x384x384x512 : Shape := ⟨4, ![2, 384, 384, 512]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x384, .i32⟩
  | .hbm, ⟨1, _⟩ => ⟨S2x384, .i32⟩
  | .hbm, ⟨2, _⟩ => ⟨S769x128, .f32⟩
  | .hbm, ⟨3, _⟩ => ⟨S769x128, .f32⟩
  | .hbm, ⟨4, _⟩ => ⟨S769x128, .f32⟩
  | .hbm, ⟨5, _⟩ => ⟨S769x128, .f32⟩
  | .hbm, ⟨6, _⟩ => ⟨S128x512, .f32⟩
  | .hbm, ⟨7, _⟩ => ⟨S128, .f32⟩
  | .hbm, ⟨8, _⟩ => ⟨S2x384x1, .i32⟩
  | .hbm, ⟨9, _⟩ => ⟨S2x1x384, .i32⟩
  | .hbm, ⟨10, _⟩ => ⟨S2x384x384, .i32⟩
  | .hbm, ⟨11, _⟩ => ⟨S2x384x384, .i32⟩
  | .hbm, ⟨12, _⟩ => ⟨S2x384x384, .i32⟩
  | .hbm, ⟨13, _⟩ => ⟨S_, .i32⟩
  | .hbm, ⟨14, _⟩ => ⟨S2x384x384, .i32⟩
  | .hbm, ⟨15, _⟩ => ⟨S2x384x384, .i32⟩
  | .hbm, ⟨16, _⟩ => ⟨S2x384x1, .i32⟩
  | .hbm, ⟨17, _⟩ => ⟨S2x1x384, .i32⟩
  | .hbm, ⟨18, _⟩ => ⟨S2x384x384, .i32⟩
  | .hbm, ⟨19, _⟩ => ⟨S2x384x384, .i32⟩
  | .hbm, ⟨20, _⟩ => ⟨S2x384x384, .i32⟩
  | .hbm, ⟨21, _⟩ => ⟨S_, .i32⟩
  | .hbm, ⟨22, _⟩ => ⟨S2x384x384, .i32⟩
  | .hbm, ⟨23, _⟩ => ⟨S2x384x384, .i32⟩
  | .hbm, ⟨24, _⟩ => ⟨S2x384x1, .i32⟩
  | .hbm, ⟨25, _⟩ => ⟨S2x1x384, .i32⟩
  | .hbm, ⟨26, _⟩ => ⟨S2x384x384, .i32⟩
  | .hbm, ⟨27, _⟩ => ⟨S2x384x384, .i32⟩
  | .hbm, ⟨28, _⟩ => ⟨S2x384x384, .i32⟩
  | .hbm, ⟨29, _⟩ => ⟨S_, .i32⟩
  | .hbm, ⟨30, _⟩ => ⟨S2x384x384, .i32⟩
  | .hbm, ⟨31, _⟩ => ⟨S2x384x384, .i32⟩
  | .hbm, ⟨32, _⟩ => ⟨S2x384x1, .i32⟩
  | .hbm, ⟨33, _⟩ => ⟨S2x1x384, .i32⟩
  | .hbm, ⟨34, _⟩ => ⟨S2x384x384, .i32⟩
  | .hbm, ⟨35, _⟩ => ⟨S2x384x384, .i32⟩
  | .hbm, ⟨36, _⟩ => ⟨S2x384x384, .i32⟩
  | .hbm, ⟨37, _⟩ => ⟨S_, .i32⟩
  | .hbm, ⟨38, _⟩ => ⟨S2x384x384, .i32⟩
  | .hbm, ⟨39, _⟩ => ⟨S2x384x384, .i32⟩
  | .hbm, ⟨40, _⟩ => ⟨S_, .i32⟩
  | .hbm, ⟨41, _⟩ => ⟨S2x384x384, .i32⟩
  | .hbm, ⟨42, _⟩ => ⟨S2x384x384, .i1⟩
  | .hbm, ⟨43, _⟩ => ⟨S_, .i32⟩
  | .hbm, ⟨44, _⟩ => ⟨S2x384x384, .i32⟩
  | .hbm, ⟨45, _⟩ => ⟨S2x384x384, .i32⟩
  | .hbm, ⟨46, _⟩ => ⟨S2x384x384, .i32⟩
  | .hbm, ⟨47, _⟩ => ⟨S2x384x384x1, .i32⟩
  | .hbm, ⟨48, _⟩ => ⟨S2x384x384x128, .f32⟩
  | .hbm, ⟨49, _⟩ => ⟨S_, .i32⟩
  | .hbm, ⟨50, _⟩ => ⟨S2x384x384, .i32⟩
  | .hbm, ⟨51, _⟩ => ⟨S2x384x384, .i1⟩
  | .hbm, ⟨52, _⟩ => ⟨S_, .i32⟩
  | .hbm, ⟨53, _⟩ => ⟨S2x384x384, .i32⟩
  | .hbm, ⟨54, _⟩ => ⟨S2x384x384, .i32⟩
  | .hbm, ⟨55, _⟩ => ⟨S2x384x384, .i32⟩
  | .hbm, ⟨56, _⟩ => ⟨S2x384x384x1, .i32⟩
  | .hbm, ⟨57, _⟩ => ⟨S2x384x384x128, .f32⟩
  | .hbm, ⟨58, _⟩ => ⟨S_, .i32⟩
  | .hbm, ⟨59, _⟩ => ⟨S2x384x384, .i32⟩
  | .hbm, ⟨60, _⟩ => ⟨S2x384x384, .i1⟩
  | .hbm, ⟨61, _⟩ => ⟨S_, .i32⟩
  | .hbm, ⟨62, _⟩ => ⟨S2x384x384, .i32⟩
  | .hbm, ⟨63, _⟩ => ⟨S2x384x384, .i32⟩
  | .hbm, ⟨64, _⟩ => ⟨S2x384x384, .i32⟩
  | .hbm, ⟨65, _⟩ => ⟨S2x384x384x1, .i32⟩
  | .hbm, ⟨66, _⟩ => ⟨S2x384x384x128, .f32⟩
  | .hbm, ⟨67, _⟩ => ⟨S_, .i32⟩
  | .hbm, ⟨68, _⟩ => ⟨S2x384x384, .i32⟩
  | .hbm, ⟨69, _⟩ => ⟨S2x384x384, .i1⟩
  | .hbm, ⟨70, _⟩ => ⟨S_, .i32⟩
  | .hbm, ⟨71, _⟩ => ⟨S2x384x384, .i32⟩
  | .hbm, ⟨72, _⟩ => ⟨S2x384x384, .i32⟩
  | .hbm, ⟨73, _⟩ => ⟨S2x384x384, .i32⟩
  | .hbm, ⟨74, _⟩ => ⟨S2x384x384x1, .i32⟩
  | .hbm, ⟨75, _⟩ => ⟨S2x384x384x128, .f32⟩
  | .hbm, ⟨76, _⟩ => ⟨S2x384x384x512, .f32⟩
  | .hbm, ⟨77, _⟩ => ⟨S2x384x384x128, .f32⟩
  | .hbm, ⟨78, _⟩ => ⟨S1x1x1x128, .f32⟩
  | .hbm, ⟨79, _⟩ => ⟨S2x384x384x128, .f32⟩
  | .hbm, ⟨80, _⟩ => ⟨S2x384x384x128, .f32⟩
  | .hbm, ⟨81, _⟩ => ⟨S_, .f32⟩
  | .hbm, ⟨82, _⟩ => ⟨S2x384x384x128, .f32⟩
  | .hbm, ⟨83, _⟩ => ⟨S2x384x384x128, .f32⟩
  | _, _ => ⟨S2x384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call0_cst : Ref sig .tc := ⟨.hbm, 81, rfl⟩
abbrev main_call0_v0 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  bcast_S2x384_S2x384x1_0_1 : S2x384.BroadcastsInDim S2x384x1 (![0, 1] : Fin 2 → Fin S2x384x1.rank)
  bcast_S2x384_S2x1x384_0_2 : S2x384.BroadcastsInDim S2x1x384 (![0, 2] : Fin 2 → Fin S2x1x384.rank)
  bcast_S2x384x1_S2x384x384_0_1_2 : S2x384x1.BroadcastsInDim S2x384x384 (![0, 1, 2] : Fin 3 → Fin S2x384x384.rank)
  bcast_S2x1x384_S2x384x384_0_1_2 : S2x1x384.BroadcastsInDim S2x384x384 (![0, 1, 2] : Fin 3 → Fin S2x384x384.rank)
  bcast_S_S2x384x384 : S_.BroadcastsInDim S2x384x384 (![] : Fin 0 → Fin S2x384x384.rank)
  bcast_S2x384x384_S2x384x384x1_0_1_2 : S2x384x384.BroadcastsInDim S2x384x384x1 (![0, 1, 2] : Fin 3 → Fin S2x384x384x1.rank)
  concatenates_S2x384x384x128_S2x384x384x128_S2x384x384x128_S2x384x384x128_S2x384x384x512_d3 : Shape.Concatenates [S2x384x384x128, S2x384x384x128, S2x384x384x128, S2x384x384x128] S2x384x384x512 3
  bcast_S128_S1x1x1x128_3 : S128.BroadcastsInDim S1x1x1x128 (![3] : Fin 1 → Fin S1x1x1x128.rank)
  bcast_S1x1x1x128_S2x384x384x128_0_1_2_3 : S1x1x1x128.BroadcastsInDim S2x384x384x128 (![0, 1, 2, 3] : Fin 4 → Fin S2x384x384x128.rank)
  bcast_S_S2x384x384x128 : S_.BroadcastsInDim S2x384x384x128 (![] : Fin 0 → Fin S2x384x384x128.rank)
  gather_S769x128_S2x384x384x1_S2x384x384x128_3_0_n_n_0_3_1128_wf : GatherDims.WF S769x128 S2x384x384x1 S2x384x384x128 [3] [0] [] [0] [] 3 ![1, 128]
  dot_S2x384x384x512_S128x512_S2x384x384x128_3_1_012_0_n_n_wf : DotDims.WF S2x384x384x512 S128x512 S2x384x384x128 [3] [1] [0, 1, 2] [0] [] []

variable [Facts₀]

def gather_S769x128_S2x384x384x1_S2x384x384x128_3_0_n_n_0_3_1128 : GatherDims S769x128 S2x384x384x1 S2x384x384x128 where
  offsetDims := [3]
  collapsedSliceDims := [0]
  operandBatchingDims := []
  startIndicesBatchingDims := []
  startIndexMap := [0]
  indexVectorDim := 3
  sliceSizes := ![1, 128]
  wf := gather_S769x128_S2x384x384x1_S2x384x384x128_3_0_n_n_0_3_1128_wf
def dot_S2x384x384x512_S128x512_S2x384x384x128_3_1_012_0_n_n : DotDims S2x384x384x512 S128x512 S2x384x384x128 where
  lhsContracting := [3]
  rhsContracting := [1]
  lhsNonContracting := [0, 1, 2]
  rhsNonContracting := [0]
  lhsBatch := []
  rhsBatch := []
  wf := dot_S2x384x384x512_S128x512_S2x384x384x128_3_1_012_0_n_n_wf

class Facts : Prop extends Facts₀ where

variable [Facts]
-- ==== Proof.Kernel.Body.lean ====
/-
  The kernel body at one grid point, the pipeline's proof data, and the frame run, for any float instance.

  A grid point `(β, qi, ki)` reads, from each of the two position blocks `[2, 384, 1]`, the 32 query positions
  `[β, 32·qi + ·, 0]` and the 128 key positions `[β, 128·ki + ·, 0]` (through a slice of the block at batch `β`, squeezed to
  `[384, 1]`), the four folded tables `[768, 128]` and the bias whole, and stores one block `[1, 32, 128, 128]` of the result:
  the body's arithmetic (the skeleton's payloads) of those loads. The store covers the whole block, so what the output
  buffer held before does not matter; nothing is carried from one point to the next.
-/
import proofs.«425181_j23141283790923_4_alg».proof.Proof.Gen.Kernel.Frame
import proofs.«425181_j23141283790923_4_alg».proof.Proof.Gen.Kernel.Skeleton
import Idealize.ShloMosaic.Lib.Pipeline.Value

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

abbrev 𝒱₀ : Variants := Variants.none
local notation "𝕄" => MT nD τ sig Unit (Elt F) ℕ (UR sig nD τ) ℕ

/-! ## What the body reads and what it stores -/

/-- The batch slice of a position block at the point's batch coordinate. -/
abbrev batchRect (i : grid0.Coords) : Rect S2x384x1 := Rect.unit (s := S2x384x1) (k0_off1 i) S1x384x1.size (k0_off1_inb i)
/-- The 32 query rows at the point, within the squeezed batch slice `[384, 1]`. -/
abbrev qRect (i : grid0.Coords) : Rect S384x1 := Rect.unit (s := S384x1) (k0_off2 i) S32x1.size (k0_off2_inb i)
/-- The 128 key rows at the point, within the squeezed batch slice. -/
abbrev kRect (i : grid0.Coords) : Rect S384x1 := Rect.unit (s := S384x1) (k0_off3 i) S128x1.size (k0_off3_inb i)
/-- A whole table, the whole bias, the whole output block. -/
abbrev tabRect : Rect S768x128 := Rect.unit (s := S768x128) ![0, 0] S768x128.size inb_S768x128_S768x128_0_0
abbrev biasRect : Rect S128 := Rect.unit (s := S128) ![0] S128.size inb_S128_S128_0
abbrev outRect : Rect S1x32x128x128 := Rect.unit (s := S1x32x128x128) ![0, 0, 0, 0] S1x32x128x128.size inb_S1x32x128x128_S1x32x128x128_0_0_0_0

/-- The query positions a point loads from a position block's contents `X`: `X` at the batch slice's placement of the
    squeezed index of the load's row. -/
def posQ (i : grid0.Coords) (X : Vec F S2x384x1 .i32) : Vec F S32x1 .i32 := fun x =>
  X ((batchRect i).emb (Shape.reshapeEquiv squeezes_S1x384x1_S384x1.numel_eq ((qRect i).toLoadRect.idx x)))

/-- The key positions a point loads from a position block's contents. -/
def posK (i : grid0.Coords) (X : Vec F S2x384x1 .i32) : Vec F S128x1 .i32 := fun x =>
  X ((batchRect i).emb (Shape.reshapeEquiv squeezes_S1x384x1_S384x1.numel_eq ((kRect i).toLoadRect.idx x)))

/-- A load of the query rows through the squeezed batch slice of a view reads `posQ` of what the view reads. -/
theorem posQ_read (v : View sig .tc .vmem S2x384x1 .i32) (f : v.ty.Contents (Elt F)) (i : grid0.Coords) :
    posQ i (v.read (Elt F) f)
      = View.readAt (Elt F) ((v.slice (batchRect i)).reshape S384x1 squeezes_S1x384x1_S384x1.numel_eq) (qRect i).toLoadRect f := rfl

/-- A load of the key rows through the squeezed batch slice of a view reads `posK` of what the view reads. -/
theorem posK_read (v : View sig .tc .vmem S2x384x1 .i32) (f : v.ty.Contents (Elt F)) (i : grid0.Coords) :
    posK i (v.read (Elt F) f)
      = View.readAt (Elt F) ((v.slice (batchRect i)).reshape S384x1 squeezes_S1x384x1_S384x1.numel_eq) (kRect i).toLoadRect f := rfl

/-- What the body stores into the output block at a point with coordinates `i`, from the contents of its seven input
    blocks: the skeleton's payloads over the loads. -/
def blockOut (i : grid0.Coords) (X3 X4 : Vec F S2x384x1 .i32) (X5 X6 X7 X8 : Vec F S768x128 .bf16) (X9 : Vec F S128 .f32) :
    FVec F S1x32x128x128 .f32 :=
  k0_pay1 (k0_pay8 (k0_pay3 (posK i X3)) (k0_pay4 (posQ i X4))) (k0_pay9 (k0_pay4 (posQ i X4)) (k0_pay5 (posK i X4)))
    (iota .tc S32x128x768 32 [2] iota_S32x128x768_d2_w32)
    (k0_pay10 (k0_pay6 (posQ i X3) (posK i X3)) (View.ld X5 tabRect))
    (k0_pay11 (k0_pay5 (posK i X4)) (k0_pay7 (posQ i X3)))
    (View.ld X6 tabRect) (View.ld X7 tabRect) (View.ld X8 tabRect) (View.ld X9 biasRect)

theorem off0 : (![0, 0, 0, 0] : Fin 4 → ℕ) = fun _ => 0 := funext fun a => by fin_cases a <;> rfl

/-- The output block's one store covers the block. -/
theorem cover_out (w : Vec F S1x32x128x128 .f32) (y : S1x32x128x128.Idx) :
    ∃ pc ∈ ([⟨outRect, w⟩] : List (View.Piece (Elt F) S1x32x128x128 .f32)), y ∈ pc.1.set :=
  ⟨_, List.mem_singleton_self _, View.mem_set_unit_zero off0 inb_S1x32x128x128_S1x32x128x128_0_0_0_0 y⟩

/-! ## The body's triple -/

/-- The kernel function on whole staging memrefs: the seven inputs at contents `x3 … x9`, the output at anything, runs to a
    state with the inputs as they were and the output at `blockOut` of them. -/
theorem sound_kernel (c : Dev nD) (i : grid0.Coords)
    (arg3 : Memref sig .tc .vmem S2x384x1 .i32) (harg3 : arg3.IsWhole) (arg4 : Memref sig .tc .vmem S2x384x1 .i32) (harg4 : arg4.IsWhole)
    (arg5 : Memref sig .tc .vmem S768x128 .bf16) (harg5 : arg5.IsWhole) (arg6 : Memref sig .tc .vmem S768x128 .bf16) (harg6 : arg6.IsWhole)
    (arg7 : Memref sig .tc .vmem S768x128 .bf16) (harg7 : arg7.IsWhole) (arg8 : Memref sig .tc .vmem S768x128 .bf16) (harg8 : arg8.IsWhole)
    (arg9 : Memref sig .tc .vmem S128 .f32) (harg9 : arg9.IsWhole) (arg10 : Memref sig .tc .vmem S1x32x128x128 .f32) (harg10 : arg10.IsWhole)
    (x3 x4 : Vec F S2x384x1 .i32) (x5 x6 x7 x8 : Vec F S768x128 .bf16) (x9 : Vec F S128 .f32) (K : PUnit → sProp 𝕄) :
    iprop(owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare x9
            ∗ owns (c : Thread nD τ) arg10 fullShare (blockOut i x3 x4 x5 x6 x7 x8 x9)) -∗ K ⟨⟩))
      ⊢ wp frame (wpE (defs₀ (F := F)) 𝒱₀ c none) Set.univ (cc0__fused_kernel i arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton, k0_part2_eq_skeleton]; unfold k0_part1_skel k0_part2_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf3 hf4 hf5 hf6 hf7 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  rw [View.read_writes_eq_canon _ _ _ (cover_out _), View.canon_unit_zero off0]
  sl_unfold_words
  dsimp only
  unfold blockOut
  rw [posQ_read arg3.view f3, posQ_read arg4.view f4, posK_read arg3.view f3, posK_read arg4.view f4,
    ← View.readAt_eq_ld arg5.view f5, ← View.readAt_eq_ld arg6.view f6, ← View.readAt_eq_ld arg7.view f7,
    ← View.readAt_eq_ld arg8.view f8, ← View.readAt_eq_ld arg9.view f9]
  dsimp only [batchRect, qRect, kRect, tabRect, biasRect, k0_off1, k0_off2, k0_off3]

/-! ## The pipeline's proof data -/

variable (m : (ℓ : Loc nD τ sig) → Buf (Elt F) ℓ) (ρ : Dev nD → PrngReg)

/-- The proof data of the one pipeline on core `c`: the arrays as the region finds them; after the body at point `t` each
    input's buffer still at its block and the output's at `blockOut` of the input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (grid0.coords t) (iblk m c 0 t) (iblk m c 1 t) (iblk m c 2 t) (iblk m c 3 t) (iblk m c 4 t) (iblk m c 5 t) (iblk m c 6 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = blockOut (grid0.coords t) (iblk m c 0 t) (iblk m c 1 t) (iblk m c 2 t) (iblk m c 3 t) (iblk m c 4 t) (iblk m c 5 t) (iblk m c 6 t) := by
  dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, the output's holds anything, so `sound_kernel` applies;
    the class invariant and the core's `owes` pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: @main runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Proof.K

end
-- ==== Proof.KernelIdeal.Body.lean ====
/-
  The kernel body at one grid point, the pipeline's proof data, and the frame run, for any float instance.

  A grid point `(β, qi, ki)` reads, from each of the two position blocks `[2, 384, 1]`, the 32 query positions
  `[β, 32·qi + ·, 0]` and the 128 key positions `[β, 128·ki + ·, 0]` (through a slice of the block at batch `β`, squeezed to
  `[384, 1]`), the four folded tables `[768, 128]` and the bias whole, and stores one block `[1, 32, 128, 128]` of the result:
  the body's arithmetic (the skeleton's payloads) of those loads. The store covers the whole block, so what the output
  buffer held before does not matter; nothing is carried from one point to the next.
-/
import proofs.«425181_j23141283790923_4_alg».proof.Proof.Gen.KernelIdeal.Frame
import proofs.«425181_j23141283790923_4_alg».proof.Proof.Gen.KernelIdeal.Skeleton
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

abbrev 𝒱₀ : Variants := Variants.none
local notation "𝕄" => MT nD τ sig Unit (Elt F) ℕ (UR sig nD τ) ℕ

/-! ## What the body reads and what it stores -/

/-- The batch slice of a position block at the point's batch coordinate. -/
abbrev batchRect (i : grid0.Coords) : Rect S2x384x1 := Rect.unit (s := S2x384x1) (k0_off1 i) S1x384x1.size (k0_off1_inb i)
/-- The 32 query rows at the point, within the squeezed batch slice `[384, 1]`. -/
abbrev qRect (i : grid0.Coords) : Rect S384x1 := Rect.unit (s := S384x1) (k0_off2 i) S32x1.size (k0_off2_inb i)
/-- The 128 key rows at the point, within the squeezed batch slice. -/
abbrev kRect (i : grid0.Coords) : Rect S384x1 := Rect.unit (s := S384x1) (k0_off3 i) S128x1.size (k0_off3_inb i)
/-- A whole table, the whole bias, the whole output block. -/
abbrev tabRect : Rect S768x128 := Rect.unit (s := S768x128) ![0, 0] S768x128.size inb_S768x128_S768x128_0_0
abbrev biasRect : Rect S128 := Rect.unit (s := S128) ![0] S128.size inb_S128_S128_0
abbrev outRect : Rect S1x32x128x128 := Rect.unit (s := S1x32x128x128) ![0, 0, 0, 0] S1x32x128x128.size inb_S1x32x128x128_S1x32x128x128_0_0_0_0

/-- The query positions a point loads from a position block's contents `X`: `X` at the batch slice's placement of the
    squeezed index of the load's row. -/
def posQ (i : grid0.Coords) (X : Vec F S2x384x1 .i32) : Vec F S32x1 .i32 := fun x =>
  X ((batchRect i).emb (Shape.reshapeEquiv squeezes_S1x384x1_S384x1.numel_eq ((qRect i).toLoadRect.idx x)))

/-- The key positions a point loads from a position block's contents. -/
def posK (i : grid0.Coords) (X : Vec F S2x384x1 .i32) : Vec F S128x1 .i32 := fun x =>
  X ((batchRect i).emb (Shape.reshapeEquiv squeezes_S1x384x1_S384x1.numel_eq ((kRect i).toLoadRect.idx x)))

/-- A load of the query rows through the squeezed batch slice of a view reads `posQ` of what the view reads. -/
theorem posQ_read (v : View sig .tc .vmem S2x384x1 .i32) (f : v.ty.Contents (Elt F)) (i : grid0.Coords) :
    posQ i (v.read (Elt F) f)
      = View.readAt (Elt F) ((v.slice (batchRect i)).reshape S384x1 squeezes_S1x384x1_S384x1.numel_eq) (qRect i).toLoadRect f := rfl

/-- A load of the key rows through the squeezed batch slice of a view reads `posK` of what the view reads. -/
theorem posK_read (v : View sig .tc .vmem S2x384x1 .i32) (f : v.ty.Contents (Elt F)) (i : grid0.Coords) :
    posK i (v.read (Elt F) f)
      = View.readAt (Elt F) ((v.slice (batchRect i)).reshape S384x1 squeezes_S1x384x1_S384x1.numel_eq) (kRect i).toLoadRect f := rfl

/-- What the body stores into the output block at a point with coordinates `i`, from the contents of its seven input
    blocks: the skeleton's payloads over the loads. -/
def blockOut (i : grid0.Coords) (X3 X4 : Vec F S2x384x1 .i32) (X5 X6 X7 X8 : Vec F S768x128 .bf16) (X9 : Vec F S128 .f32) :
    FVec F S1x32x128x128 .f32 :=
  k0_pay1 (k0_pay8 (k0_pay3 (posK i X3)) (k0_pay4 (posQ i X4))) (k0_pay9 (k0_pay4 (posQ i X4)) (k0_pay5 (posK i X4)))
    (iota .tc S32x128x768 32 [2] iota_S32x128x768_d2_w32)
    (k0_pay10 (k0_pay6 (posQ i X3) (posK i X3)) (View.ld X5 tabRect))
    (k0_pay11 (k0_pay5 (posK i X4)) (k0_pay7 (posQ i X3)))
    (View.ld X6 tabRect) (View.ld X7 tabRect) (View.ld X8 tabRect) (View.ld X9 biasRect)

theorem off0 : (![0, 0, 0, 0] : Fin 4 → ℕ) = fun _ => 0 := funext fun a => by fin_cases a <;> rfl

/-- The output block's one store covers the block. -/
theorem cover_out (w : Vec F S1x32x128x128 .f32) (y : S1x32x128x128.Idx) :
    ∃ pc ∈ ([⟨outRect, w⟩] : List (View.Piece (Elt F) S1x32x128x128 .f32)), y ∈ pc.1.set :=
  ⟨_, List.mem_singleton_self _, View.mem_set_unit_zero off0 inb_S1x32x128x128_S1x32x128x128_0_0_0_0 y⟩

/-! ## The body's triple -/

/-- The kernel function on whole staging memrefs: the seven inputs at contents `x3 … x9`, the output at anything, runs to a
    state with the inputs as they were and the output at `blockOut` of them. -/
theorem sound_kernel (c : Dev nD) (i : grid0.Coords)
    (arg3 : Memref sig .tc .vmem S2x384x1 .i32) (harg3 : arg3.IsWhole) (arg4 : Memref sig .tc .vmem S2x384x1 .i32) (harg4 : arg4.IsWhole)
    (arg5 : Memref sig .tc .vmem S768x128 .bf16) (harg5 : arg5.IsWhole) (arg6 : Memref sig .tc .vmem S768x128 .bf16) (harg6 : arg6.IsWhole)
    (arg7 : Memref sig .tc .vmem S768x128 .bf16) (harg7 : arg7.IsWhole) (arg8 : Memref sig .tc .vmem S768x128 .bf16) (harg8 : arg8.IsWhole)
    (arg9 : Memref sig .tc .vmem S128 .f32) (harg9 : arg9.IsWhole) (arg10 : Memref sig .tc .vmem S1x32x128x128 .f32) (harg10 : arg10.IsWhole)
    (x3 x4 : Vec F S2x384x1 .i32) (x5 x6 x7 x8 : Vec F S768x128 .bf16) (x9 : Vec F S128 .f32) (K : PUnit → sProp 𝕄) :
    iprop(owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare x9
            ∗ owns (c : Thread nD τ) arg10 fullShare (blockOut i x3 x4 x5 x6 x7 x8 x9)) -∗ K ⟨⟩))
      ⊢ wp frame (wpE (defs₀ (F := F)) 𝒱₀ c none) Set.univ (cc0__fused_kernel i arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton, k0_part2_eq_skeleton]; unfold k0_part1_skel k0_part2_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf3 hf4 hf5 hf6 hf7 hf8 hf9
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  rw [View.read_writes_eq_canon _ _ _ (cover_out _), View.canon_unit_zero off0]
  sl_unfold_words
  dsimp only
  unfold blockOut
  rw [posQ_read arg3.view f3, posQ_read arg4.view f4, posK_read arg3.view f3, posK_read arg4.view f4,
    ← View.readAt_eq_ld arg5.view f5, ← View.readAt_eq_ld arg6.view f6, ← View.readAt_eq_ld arg7.view f7,
    ← View.readAt_eq_ld arg8.view f8, ← View.readAt_eq_ld arg9.view f9]
  dsimp only [batchRect, qRect, kRect, tabRect, biasRect, k0_off1, k0_off2, k0_off3]

/-! ## The pipeline's proof data -/

variable (m : (ℓ : Loc nD τ sig) → Buf (Elt F) ℓ) (ρ : Dev nD → PrngReg)

/-- The proof data of the one pipeline on core `c`: the arrays as the region finds them; after the body at point `t` each
    input's buffer still at its block and the output's at `blockOut` of the input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockOut (grid0.coords t) (iblk m c 0 t) (iblk m c 1 t) (iblk m c 2 t) (iblk m c 3 t) (iblk m c 4 t) (iblk m c 5 t) (iblk m c 6 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = blockOut (grid0.coords t) (iblk m c 0 t) (iblk m c 1 t) (iblk m c 2 t) (iblk m c 3 t) (iblk m c 4 t) (iblk m c 5 t) (iblk m c 6 t) := by
  dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, the output's holds anything, so `sound_kernel` applies;
    the class invariant and the core's `owes` pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: @main runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Proof.KI

end
-- ==== Proof.KernelIdeal.Blocks.lean ====
/-
  The windows' blocks: where each block sits in its array.

  The seven input windows stage their whole arrays: at every grid point the block index is zero on every axis and the block
  has the array's extents, so the block read at a point is the array as the region finds it. The output window's block at
  the point `(β, qi, ki)` is the box `[β, β+1) × [32·qi, 32·qi+32) × [128·ki, 128·ki+128) × [0, 128)` of the result
  `[2, 384, 384, 128]`; the 72 boxes tile the result, the one holding `(β, q, k, h)` being the point `(β, q / 32, k / 128)`.
-/
import proofs.«425181_j23141283790923_4_alg».proof.Proof.KernelIdeal.Body
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx Idealize.ShloMosaic.TcCoe Idealize.SL.Sem
open Idealize.ShloMosaic.Pipeline (Dat Cfg Window)

variable {F : FTy → Type} [FloatOps F]

/-! ## The index maps, decided over the grid -/

/-- Every input window's block index is zero on every axis, at every point. -/
theorem idx_in : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) :=
  (by decide +kernel : ∀ t : Fin grid0.N, _)

/-- The output window's block index is the point's coordinates, zero on the channel axis. -/
theorem idx_out : ∀ t : Fin cfg0.N, win0_7.index t (0 : Fin 4) = (grid0.coords t 0).val ∧ win0_7.index t (1 : Fin 4) = (grid0.coords t 1).val
    ∧ win0_7.index t (2 : Fin 4) = (grid0.coords t 2).val ∧ win0_7.index t (3 : Fin 4) = 0 :=
  (by decide +kernel : ∀ t : Fin grid0.N, _)

/-- Every triple of block coordinates is some point's. -/
theorem idx_onto : ∀ (β : Fin 2) (qi : Fin 12) (ki : Fin 3), ∃ t : Fin cfg0.N, win0_7.index t = ![β.val, qi.val, ki.val, 0] :=
  (by decide +kernel : ∀ (β : Fin 2) (qi : Fin 12) (ki : Fin 3), ∃ t : Fin grid0.N, win0_7.index t = ![β.val, qi.val, ki.val, 0])

/-! ## An input block is the whole staged array -/

variable (m : (ℓ : Loc nD τ sig) → Buf (Elt F) ℓ)

theorem iblk0 (c : Dev nD) (t : Fin cfg0.N) : iblk m c 0 t = V m c main_v0 := by
  funext y
  obtain ⟨h, -⟩ := idx_in t
  show V m c main_v0 (((cfg0.win 0).blk t).view.emb y) = V m c main_v0 y
  refine congrArg _ (funext fun a => Fin.ext ?_)
  match a with
  | ⟨0, _⟩ => show win0_0.index t (0 : Fin 3) * 2 + 1 * (y 0).val = (y 0).val; rw [h 0]; omega
  | ⟨1, _⟩ => show win0_0.index t (1 : Fin 3) * 384 + 1 * (y 1).val = (y 1).val; rw [h 1]; omega
  | ⟨2, _⟩ => show win0_0.index t (2 : Fin 3) * 1 + 1 * (y 2).val = (y 2).val; rw [h 2]; omega

theorem iblk1 (c : Dev nD) (t : Fin cfg0.N) : iblk m c 1 t = V m c main_v1 := by
  funext y
  obtain ⟨-, h, -⟩ := idx_in t
  show V m c main_v1 (((cfg0.win 1).blk t).view.emb y) = V m c main_v1 y
  refine congrArg _ (funext fun a => Fin.ext ?_)
  match a with
  | ⟨0, _⟩ => show win0_1.index t (0 : Fin 3) * 2 + 1 * (y 0).val = (y 0).val; rw [h 0]; omega
  | ⟨1, _⟩ => show win0_1.index t (1 : Fin 3) * 384 + 1 * (y 1).val = (y 1).val; rw [h 1]; omega
  | ⟨2, _⟩ => show win0_1.index t (2 : Fin 3) * 1 + 1 * (y 2).val = (y 2).val; rw [h 2]; omega

theorem iblk2 (c : Dev nD) (t : Fin cfg0.N) : iblk m c 2 t = V m c main_v15 := by
  funext y
  obtain ⟨-, -, h, -⟩ := idx_in t
  show V m c main_v15 (((cfg0.win 2).blk t).view.emb y) = V m c main_v15 y
  refine congrArg _ (funext fun a => Fin.ext ?_)
  match a with
  | ⟨0, _⟩ => show win0_2.index t (0 : Fin 2) * 768 + 1 * (y 0).val = (y 0).val; rw [h 0]; omega
  | ⟨1, _⟩ => show win0_2.index t (1 : Fin 2) * 128 + 1 * (y 1).val = (y 1).val; rw [h 1]; omega

theorem iblk3 (c : Dev nD) (t : Fin cfg0.N) : iblk m c 3 t = V m c main_v17 := by
  funext y
  obtain ⟨-, -, -, h, -⟩ := idx_in t
  show V m c main_v17 (((cfg0.win 3).blk t).view.emb y) = V m c main_v17 y
  refine congrArg _ (funext fun a => Fin.ext ?_)
  match a with
  | ⟨0, _⟩ => show win0_3.index t (0 : Fin 2) * 768 + 1 * (y 0).val = (y 0).val; rw [h 0]; omega
  | ⟨1, _⟩ => show win0_3.index t (1 : Fin 2) * 128 + 1 * (y 1).val = (y 1).val; rw [h 1]; omega

theorem iblk4 (c : Dev nD) (t : Fin cfg0.N) : iblk m c 4 t = V m c main_v19 := by
  funext y
  obtain ⟨-, -, -, -, h, -⟩ := idx_in t
  show V m c main_v19 (((cfg0.win 4).blk t).view.emb y) = V m c main_v19 y
  refine congrArg _ (funext fun a => Fin.ext ?_)
  match a with
  | ⟨0, _⟩ => show win0_4.index t (0 : Fin 2) * 768 + 1 * (y 0).val = (y 0).val; rw [h 0]; omega
  | ⟨1, _⟩ => show win0_4.index t (1 : Fin 2) * 128 + 1 * (y 1).val = (y 1).val; rw [h 1]; omega

theorem iblk5 (c : Dev nD) (t : Fin cfg0.N) : iblk m c 5 t = V m c main_v21 := by
  funext y
  obtain ⟨-, -, -, -, -, h, -⟩ := idx_in t
  show V m c main_v21 (((cfg0.win 5).blk t).view.emb y) = V m c main_v21 y
  refine congrArg _ (funext fun a => Fin.ext ?_)
  match a with
  | ⟨0, _⟩ => show win0_5.index t (0 : Fin 2) * 768 + 1 * (y 0).val = (y 0).val; rw [h 0]; omega
  | ⟨1, _⟩ => show win0_5.index t (1 : Fin 2) * 128 + 1 * (y 1).val = (y 1).val; rw [h 1]; omega

theorem iblk6 (c : Dev nD) (t : Fin cfg0.N) : iblk m c 6 t = V m c main_arg7 := by
  funext y
  obtain ⟨-, -, -, -, -, -, h⟩ := idx_in t
  show V m c main_arg7 (((cfg0.win 6).blk t).view.emb y) = V m c main_arg7 y
  refine congrArg _ (funext fun a => Fin.ext ?_)
  match a with
  | ⟨0, _⟩ => show win0_6.index t (0 : Fin 1) * 128 + 1 * (y 0).val = (y 0).val; rw [h 0]; omega

/-! ## The output window's blocks tile the result -/

/-- An index of the result is in point `t`'s block iff each coordinate is in the block's range on its axis. -/
theorem mem_blk7 (t : Fin cfg0.N) (i : S2x384x384x128.Idx) :
    i ∈ ((cfg0.win 7).blk t).view.set ↔ ∀ a : Fin 4, win0_7.index t a * S1x32x128x128.size a ≤ (i a).val
      ∧ (i a).val < win0_7.index t a * S1x32x128x128.size a + S1x32x128x128.size a := by
  show i ∈ ((View.whole main_v22).slice (win0_7.rect t)).set ↔ _
  rw [View.set_slice_whole, Rect.mem_set_unit]
  exact Iff.rfl

/-- Every index of the result is in some flushing point's block: the point `(β, q / 32, k / 128)`. -/
theorem cover7 (i : S2x384x384x128.Idx) :
    ∃ t : Fin cfg0.N, (cfg0.win 7).flush t = true ∧ i ∈ ((cfg0.win 7).blk t).view.set := by
  have hi0 : (i 0).val < 2 := (i 0).isLt
  have hi1 : (i 1).val < 384 := (i 1).isLt
  have hi2 : (i 2).val < 384 := (i 2).isLt
  have hi3 : (i 3).val < 128 := (i 3).isLt
  obtain ⟨t, ht⟩ := idx_onto ⟨(i 0).val, hi0⟩ ⟨(i 1).val / 32, by omega⟩ ⟨(i 2).val / 128, by omega⟩
  have q0 : win0_7.index t (0 : Fin 4) = (i 0).val := congrFun ht 0
  have q1 : win0_7.index t (1 : Fin 4) = (i 1).val / 32 := congrFun ht 1
  have q2 : win0_7.index t (2 : Fin 4) = (i 2).val / 128 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 128 ≤ (i 2).val ∧ (i 2).val < win0_7.index t (2 : Fin 4) * 128 + 128; omega
  | ⟨3, _⟩ => show win0_7.index t (3 : Fin 4) * 128 ≤ (i 3).val ∧ (i 3).val < win0_7.index t (3 : Fin 4) * 128 + 128; omega

end Cert.Proof.KI

end
-- ==== Proof.Spec.lean ====
/-
  The function both programs compute, and the pure facts that join them.

  Positions `ps pe : [2, 384]` (32-bit words), four tables `t0 … t3 : [769, 128]`, a weight `W : [128, 512]` and a bias
  `b : [128]`, over the extended reals. For a batch `β`, a query position `q`, a key position `k` and an output channel `h`:

      out[β, q, k, h] = max (((P₀ + P₁) + P₂) + P₃ + b[h]) 0,
      Pⱼ = Σ_{f < 128} tⱼ[rowⱼ, f] · W[h, 128·j + f],

  where the four rows are the relative positions shifted by 384: `row₀ = ps[β,q] − ps[β,k] + 384`, `row₁ = ps[β,q] − pe[β,k] + 384`,
  `row₂ = pe[β,q] − ps[β,k] + 384`, `row₃ = pe[β,q] − pe[β,k] + 384`, each clipped (signed) into `[0, 767]`.

  When every difference lies in `[−383, 383]` the shifted difference lies in `[1, 767]`: the clip is the identity, the shifted
  difference is not negative (so an index normalisation `i < 0 ↦ i + 769` leaves it alone), and it is a row of a 769-row table
  (so a clamp into `[0, 768]` leaves it alone too).
-/
import Idealize.ShloMosaic.Lib.ValueIdx
import Idealize.ShloMosaic.PureOps.Ideal.Laws

noncomputable section

open scoped BigOperators

namespace Cert.RelPos

open Idealize.ShloMosaic Idealize.ShloMosaic.ValueIdx

/-! ## The row a pair of positions selects -/

/-- The shifted relative position `a − b + 384`, in 32-bit two's complement. -/
def shifted (a b : BitVec 32) : BitVec 32 := IntOp.addi (IntOp.subi a b) 384#32

/-- The shifted relative position clipped (signed) into `[0, 767]`. -/
def clipRow (a b : BitVec 32) : BitVec 32 := IntOp.minsi 767#32 (IntOp.maxsi 0#32 (shifted a b))

/-- The difference of two positions lies in `[−383, 383]`, read signed. -/
def InRange (a b : BitVec 32) : Prop := -383 ≤ (a - b).toInt ∧ (a - b).toInt ≤ 383

/-- A 32-bit word read signed is its unsigned value, or that less 2^32 from the sign bit up. -/
theorem toInt_cases (x : BitVec 32) :
    (x.toInt = (x.toNat : Int) ∧ x.toNat < 2147483648) ∨ (x.toInt = (x.toNat : Int) - 4294967296 ∧ 2147483648 ≤ x.toNat) := by
  have := x.isLt
  rw [BitVec.toInt_eq_toNat_cond]
  split <;> omega

theorem toInt_zero32 : (0#32 : BitVec 32).toInt = 0 := by decide
theorem toInt_767 : (767#32 : BitVec 32).toInt = 767 := by decide

/-- Clipping any word (signed) into `[0, 767]` leaves a number below 768. -/
theorem clip_lt (s : BitVec 32) : (IntOp.minsi 767#32 (IntOp.maxsi 0#32 s)).toNat < 768 := by
  unfold IntOp.minsi IntOp.maxsi
  simp only [BitVec.slt, decide_eq_true_eq, toInt_767]
  have hs := toInt_cases s
  by_cases hneg : s.toInt < (0#32 : BitVec 32).toInt
  · rw [if_pos hneg, toInt_zero32, if_neg (by omega)]; decide
  · rw [if_neg hneg]
    rw [toInt_zero32] at hneg
    by_cases hbig : 767 < s.toInt
    · rw [if_pos hbig]; decide
    · rw [if_neg hbig]; omega

/-- A clipped row is a row of the trimmed (768-row) table, whatever the positions. -/
theorem clipRow_lt (a b : BitVec 32) : (clipRow a b).toNat < 768 := clip_lt _

/-- A difference in [−383, 383] shifted by 384 is, unsigned, that number: no wrap. -/
theorem add384_toNat (d : BitVec 32) (h1 : -383 ≤ d.toInt) (h2 : d.toInt ≤ 383) :
    ((d + 384#32).toNat : Int) = d.toInt + 384 := by
  have hd := toInt_cases d
  have hadd : (d + 384#32).toNat = (d.toNat + 384) % 4294967296 := by rw [BitVec.toNat_add]; rfl
  have := d.isLt
  omega

theorem add384_toInt (d : BitVec 32) (h1 : -383 ≤ d.toInt) (h2 : d.toInt ≤ 383) :
    (d + 384#32).toInt = d.toInt + 384 := by
  have hn := add384_toNat d h1 h2
  have hs := toInt_cases (d + 384#32)
  omega

/-- In range, the clip is the identity. -/
theorem clipRow_of_inRange {a b : BitVec 32} (h : InRange a b) : clipRow a b = shifted a b := by
  obtain ⟨h1, h2⟩ := h
  have hs := add384_toInt (a - b) h1 h2
  unfold clipRow shifted IntOp.minsi IntOp.maxsi IntOp.addi IntOp.subi
  simp only [BitVec.slt, decide_eq_true_eq, toInt_767]
  have hneg : ¬ (a - b + 384#32).toInt < (0#32 : BitVec 32).toInt := by rw [toInt_zero32]; omega
  have hbig : ¬ 767 < (a - b + 384#32).toInt := by omega
  rw [if_neg hneg, if_neg hbig]

/-- In range, the shifted difference is not negative. -/
theorem shifted_not_neg {a b : BitVec 32} (h : InRange a b) : (shifted a b).slt 0#32 = false := by
  obtain ⟨h1, h2⟩ := h
  have hs := add384_toInt (a - b) h1 h2
  unfold shifted IntOp.addi IntOp.subi
  simp only [BitVec.slt, decide_eq_false_iff_not, toInt_zero32]
  omega

/-- In range, the shifted difference read signed is the clipped row's number, at most 768. -/
theorem shifted_toInt {a b : BitVec 32} (h : InRange a b) :
    min (shifted a b).toInt.toNat 768 = (clipRow a b).toNat := by
  rw [clipRow_of_inRange h]
  obtain ⟨h1, h2⟩ := h
  have hs := add384_toInt (a - b) h1 h2
  have hn := add384_toNat (a - b) h1 h2
  unfold shifted IntOp.addi IntOp.subi
  omega

/-- The clipped row as a row of the full 769-row table. -/
def row (a b : BitVec 32) : Fin 769 := ⟨(clipRow a b).toNat, Nat.lt_trans (clipRow_lt a b) (by decide)⟩

/-! ## The function -/

abbrev Pos := (⟨2, ![2, 384]⟩ : Shape).Idx → BitVec 32
abbrev Tab := (⟨2, ![769, 128]⟩ : Shape).Idx → EReal
abbrev Wt := (⟨2, ![128, 512]⟩ : Shape).Idx → EReal
abbrev Bias := (⟨1, ![128]⟩ : Shape).Idx → EReal

/-- One table's term: row `r` of the table against the `j`-th 128-column band of `W`'s row `h`. -/
def proj (t : Tab) (W : Wt) (j : Fin 4) (r : Fin 769) (h : Fin 128) : EReal :=
  ∑ f : Fin 128, t (ix2 r f) * W (ix2 h ⟨128 * j.val + f.val, by have := j.isLt; have := f.isLt; omega⟩)

/-- The result at explicit coordinates. -/
def Gat (ps pe : Pos) (t0 t1 t2 t3 : Tab) (W : Wt) (b : Bias) (β : Fin 2) (q k : Fin 384) (h : Fin 128) : EReal :=
  max ((((proj t0 W 0 (row (ps (ix2 β q)) (ps (ix2 β k))) h + proj t1 W 1 (row (ps (ix2 β q)) (pe (ix2 β k))) h)
      + proj t2 W 2 (row (pe (ix2 β q)) (ps (ix2 β k))) h) + proj t3 W 3 (row (pe (ix2 β q)) (pe (ix2 β k))) h)
      + b (ix1 h)) 0

/-- The result array as one function of the argument arrays. -/
def G (ps pe : Pos) (t0 t1 t2 t3 : Tab) (W : Wt) (b : Bias) : (⟨4, ![2, 384, 384, 128]⟩ : Shape).Idx → EReal :=
  fun i => Gat ps pe t0 t1 t2 t3 W b ⟨(i 0).val, (i 0).isLt⟩ ⟨(i 1).val, (i 1).isLt⟩ ⟨(i 2).val, (i 2).isLt⟩ ⟨(i 3).val, (i 3).isLt⟩

theorem G_ix4 (ps pe : Pos) (t0 t1 t2 t3 : Tab) (W : Wt) (b : Bias) (β : Fin 2) (q k : Fin 384) (h : Fin 128) :
    G ps pe t0 t1 t2 t3 W b (ix4 β q k h) = Gat ps pe t0 t1 t2 t3 W b β q k h := rfl

/-! ## A one-hot row against a table picks the table's row -/

/-- Summing a table's column against the indicator of one row gives that row's entry: the other terms are `0 · x = 0`
    on the extended reals, whatever `x` is. -/
theorem onehot_pick {n : Nat} (v : Fin n) (t : Fin n → EReal) :
    ∑ r : Fin n, (if r = v then (1 : EReal) else 0) * t r = t v := by
  rw [Finset.sum_eq_single v]
  · rw [if_pos rfl, one_mul]
  · intro r _ hr; rw [if_neg hr, zero_mul]
  · intro h; exact absurd (Finset.mem_univ v) h

/-! ## A sum over 512 columns is four sums over 128 -/

theorem sum_512 (g : Fin 512 → EReal) :
    ∑ f : Fin 512, g f
      = ((∑ f : Fin 128, g ⟨f.val, by have := f.isLt; omega⟩ + ∑ f : Fin 128, g ⟨128 + f.val, by have := f.isLt; omega⟩)
          + ∑ f : Fin 128, g ⟨256 + f.val, by have := f.isLt; omega⟩) + ∑ f : Fin 128, g ⟨384 + f.val, by have := f.isLt; omega⟩ := by
  have e : ∀ (G : ℕ → EReal), ∑ f : Fin 512, G f.val = ∑ x ∈ Finset.range 512, G x := fun G => Fin.sum_univ_eq_sum_range G 512
  have e' : ∀ (G : ℕ → EReal), ∑ f : Fin 128, G f.val = ∑ x ∈ Finset.range 128, G x := fun G => Fin.sum_univ_eq_sum_range G 128
  let G : ℕ → EReal := fun x => if h : x < 512 then g ⟨x, h⟩ else 0
  have hg : ∀ f : Fin 512, g f = G f.val := fun f => by simp only [G]; rw [dif_pos f.isLt]
  have h0 : ∀ f : Fin 128, g ⟨f.val, by have := f.isLt; omega⟩ = G f.val := fun f => by
    simp only [G]; rw [dif_pos (by have := f.isLt; omega)]
  have h1 : ∀ f : Fin 128, g ⟨128 + f.val, by have := f.isLt; omega⟩ = G (128 + f.val) := fun f => by
    simp only [G]; rw [dif_pos (by have := f.isLt; omega)]
  have h2 : ∀ f : Fin 128, g ⟨256 + f.val, by have := f.isLt; omega⟩ = G (256 + f.val) := fun f => by
    simp only [G]; rw [dif_pos (by have := f.isLt; omega)]
  have h3 : ∀ f : Fin 128, g ⟨384 + f.val, by have := f.isLt; omega⟩ = G (384 + f.val) := fun f => by
    simp only [G]; rw [dif_pos (by have := f.isLt; omega)]
  simp only [hg, h0, h1, h2, h3]
  rw [e G, e' G, e' (fun x => G (128 + x)), e' (fun x => G (256 + x)), e' (fun x => G (384 + x))]
  rw [show (512 : ℕ) = 128 + 128 + 128 + 128 from rfl, Finset.sum_range_add, Finset.sum_range_add, Finset.sum_range_add]

end Cert.RelPos

end
-- ==== Proof.KernelIdeal.HostValue.lean ====
/-
  The staged arrays read at an index, over the extended reals.

  Before the region, the two position arrays `[2, 384]` are reshaped to `[2, 384, 1]`, and each table `t : [769, 128]` is folded
  with its 128-column band of the weight and trimmed: `(t · Wⱼᵀ)[0:768]`, `Wⱼ = W[:, 128·j : 128·(j+1)]`. Read at `(r, h)`
  with `r < 768` that is `Σ_{f < 128} t[r, f] · W[h, 128·j + f]`: the contraction over the table's columns, the transposed
  band read back at `W`'s own coordinates, the change of float format the identity.
-/
import proofs.«425181_j23141283790923_4_alg».proof.Proof.Gen.KernelIdeal.Frame
import proofs.«425181_j23141283790923_4_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.KI

open Cert.KernelIdeal Cert.KernelIdeal.Gen Cert.RelPos
open Idealize.ShloMosaic Idealize.ShloMosaic.ValueIdx Idealize.ShloMosaic.TcCoe Idealize.SL.Sem Idealize.ShloMosaic.StableHlo

/-! ## The folding product's operand indices, axis by axis -/

/-- The table's row is the result's row. -/
theorem fold_lhs_0 (i : S769x128.Idx) (q : dot_S769x128_S128x128_S769x128_1_0_0_1_n_n.contr.Idx) :
    (dot_S769x128_S128x128_S769x128_1_0_0_1_n_n.lhsIdx i q 0).val = (i 0).val := by
  unfold DotDims.lhsIdx
  rw [dif_neg (show ¬(0 : Fin S769x128.rank) ∈ dot_S769x128_S128x128_S769x128_1_0_0_1_n_n.lhsBatch by decide), dif_pos (show (0 : Fin S769x128.rank) ∈ dot_S769x128_S128x128_S769x128_1_0_0_1_n_n.lhsNonContracting by decide)]
  rfl
/-- The table's column is the contracted index. -/
theorem fold_lhs_1 (i : S769x128.Idx) (q : dot_S769x128_S128x128_S769x128_1_0_0_1_n_n.contr.Idx) :
    (dot_S769x128_S128x128_S769x128_1_0_0_1_n_n.lhsIdx i q 1).val = (q ⟨0, by decide⟩).val :=
  dot_S769x128_S128x128_S769x128_1_0_0_1_n_n.lhsIdx_val_of_single rfl i q
/-- The band's row is the contracted index. -/
theorem fold_rhs_0 (i : S769x128.Idx) (q : dot_S769x128_S128x128_S769x128_1_0_0_1_n_n.contr.Idx) :
    (dot_S769x128_S128x128_S769x128_1_0_0_1_n_n.rhsIdx i q 0).val = (q ⟨0, by decide⟩).val :=
  dot_S769x128_S128x128_S769x128_1_0_0_1_n_n.rhsIdx_val_of_single rfl i q
/-- The band's column is the result's column. -/
theorem fold_rhs_1 (i : S769x128.Idx) (q : dot_S769x128_S128x128_S769x128_1_0_0_1_n_n.contr.Idx) :
    (dot_S769x128_S128x128_S769x128_1_0_0_1_n_n.rhsIdx i q 1).val = (i 1).val := by
  unfold DotDims.rhsIdx
  rw [dif_neg (show ¬(1 : Fin S128x128.rank) ∈ dot_S769x128_S128x128_S769x128_1_0_0_1_n_n.rhsBatch by decide), dif_pos (show (1 : Fin S128x128.rank) ∈ dot_S769x128_S128x128_S769x128_1_0_0_1_n_n.rhsNonContracting by decide)]
  rfl

/-! ## A folded, trimmed table at `(r, h)` -/

/-- The product of a table with the transposed band of `W` that starts at column `o = 128·j`, trimmed to 768 rows, read at
    `(r, h)`: the sum over the table's columns `f` of `t[r, f] · W[h, o + f]`. -/
theorem folded_apply (t : FVec Ideal S769x128 .f32) (W : FVec Ideal S128x512 .f32) (j : Fin 4) (o : Nat) (ho : o = 128 * j.val)
    (hs : S128x512.Slices ![0, o] S128x128) (r : Fin 768) (h : Fin 128) :
    (truncf .bf16 (extractStridedSlice S768x128 ![0, 0]
        (Host.dotGeneral (F := Ideal) (φ₁ := .f32) (φ₂ := .f32) dot_S769x128_S128x128_S769x128_1_0_0_1_n_n (some .fp32) t
          (transpose S128x128 [1, 0] (extractStridedSlice S128x128 ![0, o] W hs) transposes_S128x128_S128x128_1_0))
        slices_S769x128_S768x128_0_0) bitsLt_bf16_f32 : FVec Ideal S768x128 .bf16) (ix2 r h)
      = proj t W j ⟨r.val, by have := r.isLt; omega⟩ h := by
  rw [truncf_apply]
  rw [slice2_axis0_apply 0 _ slices_S769x128_S768x128_0_0 r h ⟨r.val, by have := r.isLt; omega⟩ (Nat.zero_add _).symm]
  simp only [Host.dotGeneral]
  rw [Ideal.dotGeneral_apply, ← Equiv.sum_comp (ValueIdx.contrEquiv1 dot_S769x128_S128x128_S769x128_1_0_0_1_n_n 128 rfl rfl).symm]
  unfold proj
  refine Finset.sum_congr rfl fun f _ => ?_
  have hk := ValueIdx.contrEquiv1_symm_val dot_S769x128_S128x128_S769x128_1_0_0_1_n_n 128 rfl rfl f
  have el : dot_S769x128_S128x128_S769x128_1_0_0_1_n_n.lhsIdx (ix2 (⟨r.val, by have := r.isLt; omega⟩ : Fin 769) h)
      ((ValueIdx.contrEquiv1 dot_S769x128_S128x128_S769x128_1_0_0_1_n_n 128 rfl rfl).symm f)
        = ix2 (⟨r.val, by have := r.isLt; omega⟩ : Fin 769) f := funext fun a => Fin.ext (by
    match a with
    | ⟨0, _⟩ => exact fold_lhs_0 _ _
    | ⟨1, _⟩ => exact (fold_lhs_1 _ _).trans hk)
  have er : dot_S769x128_S128x128_S769x128_1_0_0_1_n_n.rhsIdx (ix2 (⟨r.val, by have := r.isLt; omega⟩ : Fin 769) h)
      ((ValueIdx.contrEquiv1 dot_S769x128_S128x128_S769x128_1_0_0_1_n_n 128 rfl rfl).symm f)
        = ix2 f h := funext fun a => Fin.ext (by
    match a with
    | ⟨0, _⟩ => exact (fold_rhs_0 _ _).trans hk
    | ⟨1, _⟩ => exact fold_rhs_1 _ _)
  rw [el, er, transpose_ix2_apply _ transposes_S128x128_S128x128_1_0 f h,
    slice2_axis1_apply o W hs h f ⟨128 * j.val + f.val, by have := j.isLt; have := f.isLt; omega⟩
      (by show 128 * j.val + f.val = o + f.val; omega)]

/-! ## The arrays the region stages -/

variable (m : (ℓ : Loc nD τ sig) → Buf (Elt Ideal) ℓ)

/-- The staged start positions are the argument's, with a trailing unit axis. -/
theorem V_pos0 (c : Dev nD) (β : Fin 2) (s : Fin 384) :
    (V m c main_v0 : S2x384x1.Idx → BitVec 32) (ix3 β s (0 : Fin 1)) = m ((c.tc : Thread nD τ).loc main_arg0) (ix2 β s) := by
  have e : (V m c main_v0 : S2x384x1.Idx → BitVec 32)
      = shapeCast S2x384x1 (m ((c.tc : Thread nD τ).loc main_arg0)) shapeCasts_S2x384_S2x384x1 := by
    dsimp only [V, hostOps0]; after_results; rfl
  rw [e]
  refine shapeCast_apply _ _ _ (ix2 β s) ?_
  rw [Shape.rowMajor_val_two, Shape.rowMajor_val_three]
  show β.val * 384 + s.val = (β.val * 384 + s.val) * 1 + 0
  omega

/-- The staged end positions are the argument's, with a trailing unit axis. -/
theorem V_pos1 (c : Dev nD) (β : Fin 2) (s : Fin 384) :
    (V m c main_v1 : S2x384x1.Idx → BitVec 32) (ix3 β s (0 : Fin 1)) = m ((c.tc : Thread nD τ).loc main_arg1) (ix2 β s) := by
  have e : (V m c main_v1 : S2x384x1.Idx → BitVec 32)
      = shapeCast S2x384x1 (m ((c.tc : Thread nD τ).loc main_arg1)) shapeCasts_S2x384_S2x384x1 := by
    dsimp only [V, hostOps0]; after_results; rfl
  rw [e]
  refine shapeCast_apply _ _ _ (ix2 β s) ?_
  rw [Shape.rowMajor_val_two, Shape.rowMajor_val_three]
  show β.val * 384 + s.val = (β.val * 384 + s.val) * 1 + 0
  omega

/-- The first staged table is the first argument table folded with `W`'s columns `0 … 127`. -/
theorem V_tab0 (c : Dev nD) (r : Fin 768) (h : Fin 128) :
    (V m c main_v15 : S768x128.Idx → EReal) (ix2 r h)
      = proj (m ((c.tc : Thread nD τ).loc main_arg2)) (m ((c.tc : Thread nD τ).loc main_arg6)) 0 ⟨r.val, by have := r.isLt; omega⟩ h := by
  have e : (V m c main_v15 : S768x128.Idx → EReal)
      = truncf .bf16 (extractStridedSlice S768x128 ![0, 0]
        (Host.dotGeneral (F := Ideal) (φ₁ := .f32) (φ₂ := .f32) dot_S769x128_S128x128_S769x128_1_0_0_1_n_n (some .fp32) (m ((c.tc : Thread nD τ).loc main_arg2) : FVec Ideal S769x128 .f32)
          (transpose S128x128 [1, 0] (extractStridedSlice S128x128 ![0, 0] (m ((c.tc : Thread nD τ).loc main_arg6) : FVec Ideal S128x512 .f32) slices_S128x512_S128x128_0_0) transposes_S128x128_S128x128_1_0))
        slices_S769x128_S768x128_0_0) bitsLt_bf16_f32 := by
    dsimp only [V, hostOps0]; after_results
  rw [e]
  exact folded_apply _ _ 0 0 rfl slices_S128x512_S128x128_0_0 r h

/-- The second staged table: the second argument table with columns `128 … 255`. -/
theorem V_tab1 (c : Dev nD) (r : Fin 768) (h : Fin 128) :
    (V m c main_v17 : S768x128.Idx → EReal) (ix2 r h)
      = proj (m ((c.tc : Thread nD τ).loc main_arg3)) (m ((c.tc : Thread nD τ).loc main_arg6)) 1 ⟨r.val, by have := r.isLt; omega⟩ h := by
  have e : (V m c main_v17 : S768x128.Idx → EReal)
      = truncf .bf16 (extractStridedSlice S768x128 ![0, 0]
        (Host.dotGeneral (F := Ideal) (φ₁ := .f32) (φ₂ := .f32) dot_S769x128_S128x128_S769x128_1_0_0_1_n_n (some .fp32) (m ((c.tc : Thread nD τ).loc main_arg3) : FVec Ideal S769x128 .f32)
          (transpose S128x128 [1, 0] (extractStridedSlice S128x128 ![0, 128] (m ((c.tc : Thread nD τ).loc main_arg6) : FVec Ideal S128x512 .f32) slices_S128x512_S128x128_0_128) transposes_S128x128_S128x128_1_0))
        slices_S769x128_S768x128_0_0) bitsLt_bf16_f32 := by
    dsimp only [V, hostOps0]; after_results
  rw [e]
  exact folded_apply _ _ 1 128 rfl slices_S128x512_S128x128_0_128 r h

/-- The third staged table: the third argument table with columns `256 … 383`. -/
theorem V_tab2 (c : Dev nD) (r : Fin 768) (h : Fin 128) :
    (V m c main_v19 : S768x128.Idx → EReal) (ix2 r h)
      = proj (m ((c.tc : Thread nD τ).loc main_arg4)) (m ((c.tc : Thread nD τ).loc main_arg6)) 2 ⟨r.val, by have := r.isLt; omega⟩ h := by
  have e : (V m c main_v19 : S768x128.Idx → EReal)
      = truncf .bf16 (extractStridedSlice S768x128 ![0, 0]
        (Host.dotGeneral (F := Ideal) (φ₁ := .f32) (φ₂ := .f32) dot_S769x128_S128x128_S769x128_1_0_0_1_n_n (some .fp32) (m ((c.tc : Thread nD τ).loc main_arg4) : FVec Ideal S769x128 .f32)
          (transpose S128x128 [1, 0] (extractStridedSlice S128x128 ![0, 256] (m ((c.tc : Thread nD τ).loc main_arg6) : FVec Ideal S128x512 .f32) slices_S128x512_S128x128_0_256) transposes_S128x128_S128x128_1_0))
        slices_S769x128_S768x128_0_0) bitsLt_bf16_f32 := by
    dsimp only [V, hostOps0]; after_results
  rw [e]
  exact folded_apply _ _ 2 256 rfl slices_S128x512_S128x128_0_256 r h

/-- The fourth staged table: the fourth argument table with columns `384 … 511`. -/
theorem V_tab3 (c : Dev nD) (r : Fin 768) (h : Fin 128) :
    (V m c main_v21 : S768x128.Idx → EReal) (ix2 r h)
      = proj (m ((c.tc : Thread nD τ).loc main_arg5)) (m ((c.tc : Thread nD τ).loc main_arg6)) 3 ⟨r.val, by have := r.isLt; omega⟩ h := by
  have e : (V m c main_v21 : S768x128.Idx → EReal)
      = truncf .bf16 (extractStridedSlice S768x128 ![0, 0]
        (Host.dotGeneral (F := Ideal) (φ₁ := .f32) (φ₂ := .f32) dot_S769x128_S128x128_S769x128_1_0_0_1_n_n (some .fp32) (m ((c.tc : Thread nD τ).loc main_arg5) : FVec Ideal S769x128 .f32)
          (transpose S128x128 [1, 0] (extractStridedSlice S128x128 ![0, 384] (m ((c.tc : Thread nD τ).loc main_arg6) : FVec Ideal S128x512 .f32) slices_S128x512_S128x128_0_384) transposes_S128x128_S128x128_1_0))
        slices_S769x128_S768x128_0_0) bitsLt_bf16_f32 := by
    dsimp only [V, hostOps0]; after_results
  rw [e]
  exact folded_apply _ _ 3 384 rfl slices_S128x512_S128x128_0_384 r h

end Cert.Proof.KI

end
-- ==== Proof.KernelIdeal.BlockValue.lean ====
/-
  The stored block read at an index, over the extended reals.

  At a grid point `(β, qi, ki)` the block's entry `(0, q', k', h)` is

      max ((((S₅ + S₆) + S₇) + S₈) + bias[h]) 0,

  where `Sⱼ` is the `h`-th column of table block `Xⱼ` at the row the pair of positions selects: the body builds, per pair
  `(q', k')`, the indicator over the 768 rows of "row = clipped shifted relative position" (an integer compare against the
  row number, widened and converted: exactly 1 or 0) and contracts it with the table, and a sum of `0 · x` terms and one
  `1 · x` term is `x` on the extended reals whatever the other entries are. The four pairs are (start q, start k) with
  `X₅`, (start q, end k) with `X₆`, (end q, start k) with `X₇`, (end q, end k) with `X₈`; the positions are read from
  the position blocks at batch `β`, rows `32·qi + q'` and `128·ki + k'`.
-/
import proofs.«425181_j23141283790923_4_alg».proof.Proof.KernelIdeal.Body
import proofs.«425181_j23141283790923_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KI

open Cert.KernelIdeal Cert.KernelIdeal.Gen Cert.RelPos
open Idealize.ShloMosaic Idealize.ShloMosaic.ValueIdx

namespace BlockValue

/-! ## The positions a point loads -/

theorem posQ_apply (i : grid0.Coords) (β : Fin 2) (qi : Fin 12) (hβ : (i 0).val = β.val) (hq : (i 1).val = qi.val)
    (X : Vec Ideal S2x384x1 .i32) (q' : Fin 32) :
    posQ (F := Ideal) i X (ix2 q' (0 : Fin 1)) = X (ix3 β ⟨32 * qi.val + q'.val, by omega⟩ (0 : Fin 1)) := by
  unfold posQ
  have e1 : (qRect i).toLoadRect.idx (ix2 q' (0 : Fin 1)) = ix2 (⟨32 * qi.val + q'.val, by omega⟩ : Fin 384) (0 : Fin 1) := by
    funext a; refine Fin.ext ?_
    match a with
    | ⟨0, _⟩ =>
      show k0_off2 i 0 + 1 * q'.val = 32 * qi.val + q'.val
      rw [k0_off2_eq]; show 32 * (i 1).val + 1 * q'.val = _; rw [hq]; omega
    | ⟨1, _⟩ =>
      show k0_off2 i 1 + 1 * 0 = 0
      rw [k0_off2_eq]; rfl
  rw [e1, reshapeEquiv_ix2_1ab]
  refine congrArg X (funext fun a => Fin.ext ?_)
  match a with
  | ⟨0, _⟩ =>
    show k0_off1 i 0 + 1 * 0 = β.val
    rw [k0_off1_eq]; show (i 0).val + 1 * 0 = _; omega
  | ⟨1, _⟩ =>
    show k0_off1 i 1 + 1 * (32 * qi.val + q'.val) = 32 * qi.val + q'.val
    rw [k0_off1_eq]; show 0 + 1 * (32 * qi.val + q'.val) = _; omega
  | ⟨2, _⟩ =>
    show k0_off1 i 2 + 1 * 0 = 0
    rw [k0_off1_eq]; rfl

theorem posK_apply (i : grid0.Coords) (β : Fin 2) (ki : Fin 3) (hβ : (i 0).val = β.val) (hk : (i 2).val = ki.val)
    (X : Vec Ideal S2x384x1 .i32) (k' : Fin 128) :
    posK (F := Ideal) i X (ix2 k' (0 : Fin 1)) = X (ix3 β ⟨128 * ki.val + k'.val, by omega⟩ (0 : Fin 1)) := by
  unfold posK
  have e1 : (kRect i).toLoadRect.idx (ix2 k' (0 : Fin 1)) = ix2 (⟨128 * ki.val + k'.val, by omega⟩ : Fin 384) (0 : Fin 1) := by
    funext a; refine Fin.ext ?_
    match a with
    | ⟨0, _⟩ =>
      show k0_off3 i 0 + 1 * k'.val = 128 * ki.val + k'.val
      rw [k0_off3_eq]; show 128 * (i 2).val + 1 * k'.val = _; rw [hk]; omega
    | ⟨1, _⟩ =>
      show k0_off3 i 1 + 1 * 0 = 0
      rw [k0_off3_eq]; rfl
  rw [e1, reshapeEquiv_ix2_1ab]
  refine congrArg X (funext fun a => Fin.ext ?_)
  match a with
  | ⟨0, _⟩ =>
    show k0_off1 i 0 + 1 * 0 = β.val
    rw [k0_off1_eq]; show (i 0).val + 1 * 0 = _; omega
  | ⟨1, _⟩ =>
    show k0_off1 i 1 + 1 * (128 * ki.val + k'.val) = 128 * ki.val + k'.val
    rw [k0_off1_eq]; show 0 + 1 * (128 * ki.val + k'.val) = _; omega
  | ⟨2, _⟩ =>
    show k0_off1 i 2 + 1 * 0 = 0
    rw [k0_off1_eq]; rfl

/-! ## A loaded column as a vector -/

/-- An `[a, 1]` array cast to `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay2_apply (v : Vec Ideal S32x1 .i32) (q' : Fin 32) : k0_pay2 (F := Ideal) v (ix1 q') = v (ix2 q' (0 : Fin 1)) := by
  unfold k0_pay2
  refine (shapeCast_a1_a_apply _ _ q').trans ?_
  rw [shapeCast_self]
theorem pay4_apply (v : Vec Ideal S32x1 .i32) (q' : Fin 32) : k0_pay4 (F := Ideal) v (ix1 q') = v (ix2 q' (0 : Fin 1)) := by
  unfold k0_pay4
  refine (shapeCast_a1_a_apply _ _ q').trans ?_
  rw [shapeCast_self]
theorem pay3_apply (v : Vec Ideal S128x1 .i32) (k' : Fin 128) : k0_pay3 (F := Ideal) v (ix1 k') = v (ix2 k' (0 : Fin 1)) := by
  unfold k0_pay3
  refine (shapeCast_a1_a_apply _ _ k').trans ?_
  rw [shapeCast_self]
theorem pay5_apply (v : Vec Ideal S128x1 .i32) (k' : Fin 128) : k0_pay5 (F := Ideal) v (ix1 k') = v (ix2 k' (0 : Fin 1)) := by
  unfold k0_pay5
  refine (shapeCast_a1_a_apply _ _ k').trans ?_
  rw [shapeCast_self]

/-! ## The clipped shifted relative position of a pair -/

theorem clip_apply (A : IVec S32x1 32) (B : IVec S1x128 32) (q' : Fin 32) (k' : Fin 128) :
    minsi (broadcast S32x128 767#32) (maxsi (broadcast S32x128 0#32)
      (addi (subi (broadcastTo S32x128 A broadcasts_S32x1_S32x128) (broadcastTo S32x128 B broadcasts_S1x128_S32x128))
            (broadcast S32x128 384#32))) (ix2 q' k')
      = clipRow (A (ix2 q' (0 : Fin 1))) (B (ix2 (0 : Fin 1) k')) := by
  show IntOp.minsi 767#32 (IntOp.maxsi 0#32 (IntOp.addi (IntOp.subi
      (broadcastTo S32x128 A broadcasts_S32x1_S32x128 (ix2 q' k'))
      (broadcastTo S32x128 B broadcasts_S1x128_S32x128 (ix2 q' k'))) 384#32)) = _
  rw [broadcastTo_a1_ab_apply, broadcastTo_1b_ab_apply]
  rfl

theorem pay6_apply (vq : Vec Ideal S32x1 .i32) (vk : Vec Ideal S128x1 .i32) (q' : Fin 32) (k' : Fin 128) :
    k0_pay6 (F := Ideal) vq vk (ix2 q' k') = clipRow (vq (ix2 q' (0 : Fin 1))) (vk (ix2 k' (0 : Fin 1))) := by
  unfold k0_pay6
  refine (clip_apply _ _ q' k').trans ?_
  rw [shapeCast_a_a1_apply, shapeCast_a_1a_apply, pay2_apply, pay3_apply]

theorem pay7_apply (vq : Vec Ideal S32x1 .i32) (q' : Fin 32) :
    k0_pay7 (F := Ideal) vq (ix2 q' (0 : Fin 1)) = vq (ix2 q' (0 : Fin 1)) := by
  unfold k0_pay7
  rw [shapeCast_a_a1_apply, pay2_apply]

theorem pay8_apply (B : IVec S128 32) (A : IVec S32 32) (q' : Fin 32) (k' : Fin 128) :
    k0_pay8 B A (ix2 q' k') = clipRow (A (ix1 q')) (B (ix1 k')) := by
  unfold k0_pay8
  refine (clip_apply _ _ q' k').trans ?_
  rw [shapeCast_a_a1_apply, shapeCast_a_1a_apply]

theorem pay9_apply (A : IVec S32 32) (B : IVec S128 32) (q' : Fin 32) (k' : Fin 128) :
    k0_pay9 A B (ix2 q' k') = clipRow (A (ix1 q')) (B (ix1 k')) := by
  unfold k0_pay9
  refine (clip_apply _ _ q' k').trans ?_
  rw [shapeCast_a_a1_apply, shapeCast_a_1a_apply]

/-! ## The contraction with a table, at a row that selects one table row -/

theorem dotL0 (j : S4096x128.Idx) (q : dot_S4096x768_S768x128_S4096x128_1_0_0_1_n_n.contr.Idx) :
    (dot_S4096x768_S768x128_S4096x128_1_0_0_1_n_n.lhsIdx j q 0).val = (j 0).val := by
  unfold DotDims.lhsIdx
  rw [dif_neg (show ¬(0 : Fin S4096x768.rank) ∈ dot_S4096x768_S768x128_S4096x128_1_0_0_1_n_n.lhsBatch by decide),
    dif_pos (show (0 : Fin S4096x768.rank) ∈ dot_S4096x768_S768x128_S4096x128_1_0_0_1_n_n.lhsNonContracting by decide)]
  rfl
theorem dotL1 (j : S4096x128.Idx) (q : dot_S4096x768_S768x128_S4096x128_1_0_0_1_n_n.contr.Idx) :
    (dot_S4096x768_S768x128_S4096x128_1_0_0_1_n_n.lhsIdx j q 1).val = (q ⟨0, by decide⟩).val :=
  dot_S4096x768_S768x128_S4096x128_1_0_0_1_n_n.lhsIdx_val_of_single rfl j q
theorem dotR0 (j : S4096x128.Idx) (q : dot_S4096x768_S768x128_S4096x128_1_0_0_1_n_n.contr.Idx) :
    (dot_S4096x768_S768x128_S4096x128_1_0_0_1_n_n.rhsIdx j q 0).val = (q ⟨0, by decide⟩).val :=
  dot_S4096x768_S768x128_S4096x128_1_0_0_1_n_n.rhsIdx_val_of_single rfl j q
theorem dotR1 (j : S4096x128.Idx) (q : dot_S4096x768_S768x128_S4096x128_1_0_0_1_n_n.contr.Idx) :
    (dot_S4096x768_S768x128_S4096x128_1_0_0_1_n_n.rhsIdx j q 1).val = (j 1).val := by
  unfold DotDims.rhsIdx
  rw [dif_neg (show ¬(1 : Fin S768x128.rank) ∈ dot_S4096x768_S768x128_S4096x128_1_0_0_1_n_n.rhsBatch by decide),
    dif_pos (show (1 : Fin S768x128.rank) ∈ dot_S4096x768_S768x128_S4096x128_1_0_0_1_n_n.rhsNonContracting by decide)]
  rfl

/-- A left operand whose row `(q', k')` is the indicator of one table row `v` contracts with the table to that row of it. -/
theorem pick_matmul_apply (L : FVec Ideal S32x128x768 .f32) (X : FVec Ideal S768x128 .bf16) (q' : Fin 32) (k' : Fin 128) (h : Fin 128)
    (v : Fin 768) (hL : ∀ r : Fin 768, L (ix3 q' k' r) = if r = v then (1 : EReal) else 0) :
    matmul dot_S4096x768_S768x128_S4096x128_1_0_0_1_n_n none
        (shapeCast S4096x768 (truncf .bf16 L bitsLt_bf16_f32) shapeCasts_S32x128x768_S4096x768)
        (shapeCast S768x128 X shapeCasts_S768x128_S768x128) (constant (F := Ideal) S4096x128 .f32 0x00000000#32)
        (ix2 (⟨128 * q'.val + k'.val, by omega⟩ : Fin 4096) h)
      = X (ix2 v h) := by
  simp only [matmul]
  rw [Ideal.matmul_constant_zero_apply,
    ← Equiv.sum_comp (contrEquiv1 dot_S4096x768_S768x128_S4096x128_1_0_0_1_n_n 768 rfl rfl).symm]
  refine Eq.trans (Finset.sum_congr rfl fun r _ => ?_) (onehot_pick v fun r => X (ix2 r h))
  have hk := contrEquiv1_symm_val dot_S4096x768_S768x128_S4096x128_1_0_0_1_n_n 768 rfl rfl r
  have el : dot_S4096x768_S768x128_S4096x128_1_0_0_1_n_n.lhsIdx (ix2 (⟨128 * q'.val + k'.val, by omega⟩ : Fin 4096) h)
      ((contrEquiv1 dot_S4096x768_S768x128_S4096x128_1_0_0_1_n_n 768 rfl rfl).symm r)
        = ix2 (⟨128 * q'.val + k'.val, by omega⟩ : Fin 4096) r := funext fun a => Fin.ext (by
    match a with
    | ⟨0, _⟩ => exact dotL0 _ _
    | ⟨1, _⟩ => exact (dotL1 _ _).trans hk)
  have er : dot_S4096x768_S768x128_S4096x128_1_0_0_1_n_n.rhsIdx (ix2 (⟨128 * q'.val + k'.val, by omega⟩ : Fin 4096) h)
      ((contrEquiv1 dot_S4096x768_S768x128_S4096x128_1_0_0_1_n_n 768 rfl rfl).symm r)
        = ix2 r h := funext fun a => Fin.ext (by
    match a with
    | ⟨0, _⟩ => exact (dotR0 _ _).trans hk
    | ⟨1, _⟩ => exact dotR1 _ _)
  rw [el, er, shapeCast_self]
  refine congrArg (· * X (ix2 r h)) ?_
  refine (shapeCast_apply _ _ (ix2 (⟨128 * q'.val + k'.val, by omega⟩ : Fin 4096) r) (ix3 q' k' r) ?_).trans (hL r)
  rw [Shape.rowMajor_val_three, Shape.rowMajor_val_two]
  show (q'.val * 128 + k'.val) * 768 + r.val = (128 * q'.val + k'.val) * 768 + r.val
  omega

/-! ## The indicator of a row number -/

theorem onehot_apply (idx : IVec S32x128 32) (q' : Fin 32) (k' : Fin 128) (v : Fin 768) (hv : (idx (ix2 q' k')).toNat = v.val)
    (r : Fin 768) :
    (sitofp .f32 (extui 32 (cmpi .eq
        (broadcastTo S32x128x768 (shapeCast S32x128x1 idx shapeCasts_S32x128_S32x128x1) broadcasts_S32x128x1_S32x128x768)
        (iota .tc S32x128x768 32 [2] iota_S32x128x768_d2_w32)) natLt_1_32) : FVec Ideal S32x128x768 .f32) (ix3 q' k' r)
      = if r = v then (1 : EReal) else 0 := by
  have e1 : broadcastTo S32x128x768 (shapeCast S32x128x1 idx shapeCasts_S32x128_S32x128x1) broadcasts_S32x128x1_S32x128x768
      (ix3 q' k' r) = idx (ix2 q' k') := by
    refine (broadcastTo_apply _ _ (ix3 q' k' r) (ix3 q' k' (0 : Fin 1)) fun a => ?_).trans ?_
    · match a with
      | ⟨0, _⟩ => show q'.val = if (32 : Nat) = 1 then 0 else q'.val; rw [if_neg (by decide)]
      | ⟨1, _⟩ => show k'.val = if (128 : Nat) = 1 then 0 else k'.val; rw [if_neg (by decide)]
      | ⟨2, _⟩ => show (0 : Nat) = if (1 : Nat) = 1 then 0 else r.val; rw [if_pos rfl]
    · refine shapeCast_apply _ _ (ix3 q' k' (0 : Fin 1)) (ix2 q' k') ?_
      rw [Shape.rowMajor_val_three, Shape.rowMajor_val_two]
      show q'.val * 128 + k'.val = (q'.val * 128 + k'.val) * 1 + 0
      omega
  have e2 : iota .tc S32x128x768 32 [2] iota_S32x128x768_d2_w32 (ix3 q' k' r) = BitVec.ofNat 32 r.val :=
    iota_single_apply _ _ _ _ _ _
  show ((((BitVec.ofBool
      (broadcastTo S32x128x768 (shapeCast S32x128x1 idx shapeCasts_S32x128_S32x128x1) broadcasts_S32x128x1_S32x128x768 (ix3 q' k' r)
        == iota .tc S32x128x768 32 [2] iota_S32x128x768_d2_w32 (ix3 q' k' r))).setWidth 32).toInt : ℝ) : EReal) = _
  rw [e1, e2]
  have hidx : idx (ix2 q' k') = BitVec.ofNat 32 v.val := by
    apply BitVec.eq_of_toNat_eq
    rw [hv, BitVec.toNat_ofNat]
    have := v.isLt
    omega
  rw [hidx]
  by_cases hr : r = v
  · subst hr
    rw [if_pos rfl, beq_self_eq_true]
    have h1 : ((BitVec.ofBool true).setWidth 32).toInt = 1 := by decide
    rw [h1]; simp
  · rw [if_neg hr]
    have hne : (BitVec.ofNat 32 v.val == BitVec.ofNat 32 r.val) = false := by
      rw [beq_eq_false_iff_ne]
      intro he
      have := congrArg BitVec.toNat he
      rw [BitVec.toNat_ofNat, BitVec.toNat_ofNat] at this
      have := v.isLt; have := r.isLt
      exact hr (Fin.ext (by omega))
    rw [hne]
    have h0 : ((BitVec.ofBool false).setWidth 32).toInt = 0 := by decide
    rw [h0]; simp

/-! ## The two payloads that build an indicator -/

theorem pay11_apply (B : IVec S128 32) (A : IVec S32x1 32) (q' : Fin 32) (k' : Fin 128) (v : Fin 768)
    (hv : (clipRow (A (ix2 q' (0 : Fin 1))) (B (ix1 k'))).toNat = v.val) (r : Fin 768) :
    k0_pay11 (F := Ideal) B A (ix3 q' k' r) = if r = v then (1 : EReal) else 0 := by
  unfold k0_pay11
  refine onehot_apply _ q' k' v (Eq.trans (congrArg BitVec.toNat ?_) hv) r
  refine (clip_apply _ _ q' k').trans ?_
  rw [shapeCast_a_1a_apply]

theorem pay10_apply (idx : IVec S32x128 32) (X : FVec Ideal S768x128 .bf16) (q' : Fin 32) (k' : Fin 128) (h : Fin 128) (v : Fin 768)
    (hv : (idx (ix2 q' k')).toNat = v.val) :
    k0_pay10 (F := Ideal) idx X (ix2 (⟨128 * q'.val + k'.val, by omega⟩ : Fin 4096) h) = X (ix2 v h) := by
  unfold k0_pay10
  exact pick_matmul_apply _ X q' k' h v (onehot_apply idx q' k' v hv)

/-! ## Whole-buffer loads -/

theorem ld_tab (X : Vec Ideal S768x128 .bf16) : View.ld X tabRect = X :=
  View.ld_unit_zero (funext fun a => by fin_cases a <;> rfl) inb_S768x128_S768x128_0_0 X
theorem ld_bias (X : Vec Ideal S128 .f32) : View.ld X biasRect = X :=
  View.ld_unit_zero (funext fun a => by fin_cases a <;> rfl) inb_S128_S128_0 X

/-! ## The stored block at an index -/

/-- The last payload at `(0, q', k', h)`, over its operands: the accumulated contraction, three more contractions, the bias, the
    maximum with zero. -/
theorem pay1_apply (v60 v71 : IVec S32x128 32) (v82 : FVec Ideal S4096x128 .f32) (v87 : FVec Ideal S32x128x768 .f32)
    (v90 v101 v112 : FVec Ideal S768x128 .bf16) (v116 : FVec Ideal S128 .f32) (q' : Fin 32) (k' : Fin 128) (h : Fin 128)
    (a b c : Fin 768) (ha : ∀ r : Fin 768, v87 (ix3 q' k' r) = if r = a then (1 : EReal) else 0)
    (hb : (v60 (ix2 q' k')).toNat = b.val) (hc : (v71 (ix2 q' k')).toNat = c.val) :
    k0_pay1 (F := Ideal) v60 v71 (iota .tc S32x128x768 32 [2] iota_S32x128x768_d2_w32) v82 v87 v90 v101 v112 v116 (ix4 (0 : Fin 1) q' k' h)
      = max ((((v82 (ix2 (⟨128 * q'.val + k'.val, by omega⟩ : Fin 4096) h) + v90 (ix2 a h)) + v101 (ix2 b h)) + v112 (ix2 c h))
          + v116 (ix1 h)) 0 := by
  unfold k0_pay1
  refine (shapeCast_abc_1abc_apply _ _ (0 : Fin 1) q' k' h).trans ?_
  refine (shapeCast_apply _ _ (ix3 q' k' h) (ix2 (⟨128 * q'.val + k'.val, by omega⟩ : Fin 4096) h) ?_).trans ?_
  · rw [Shape.rowMajor_val_two, Shape.rowMajor_val_three]
    show (128 * q'.val + k'.val) * 128 + h.val = (q'.val * 128 + k'.val) * 128 + h.val
    omega
  show max ((((_ + _) + _) + _) + _) (Ideal.ofBits .f32 0x00000000#32) = _
  rw [Ideal.ofBits_zero_f32]
  refine congrArg (fun x : EReal => max x 0) ?_
  refine congrArg₂ (· + ·) (congrArg₂ (· + ·) (congrArg₂ (· + ·) (congrArg₂ (· + ·) rfl ?_) ?_) ?_) ?_
  · exact pick_matmul_apply v87 v90 q' k' h a ha
  · exact pick_matmul_apply _ v101 q' k' h b (onehot_apply v60 q' k' b hb)
  · exact pick_matmul_apply _ v112 q' k' h c (onehot_apply v71 q' k' c hc)
  · refine (broadcastTo_1b_ab_apply _ _ _ h).trans ?_
    exact shapeCast_a_1a_apply _ _ (0 : Fin 1) h

end BlockValue

open BlockValue

/-- The block's entry at `(0, q', k', h)` for a point whose coordinates are `(β, qi, ki)`. -/
theorem blockOut_apply (i : grid0.Coords) (β : Fin 2) (qi : Fin 12) (ki : Fin 3)
    (hβ : (i 0).val = β.val) (hq : (i 1).val = qi.val) (hk : (i 2).val = ki.val)
    (X3 X4 : Vec Ideal S2x384x1 .i32) (X5 X6 X7 X8 : Vec Ideal S768x128 .bf16) (X9 : Vec Ideal S128 .f32)
    (q' : Fin 32) (k' : Fin 128) (h : Fin 128) :
    blockOut (F := Ideal) i X3 X4 X5 X6 X7 X8 X9 (ix4 (0 : Fin 1) q' k' h)
      = max ((((X5 (ix2 ⟨(clipRow (X3 (ix3 β ⟨32 * qi.val + q'.val, by omega⟩ (0 : Fin 1))) (X3 (ix3 β ⟨128 * ki.val + k'.val, by omega⟩ (0 : Fin 1)))).toNat, clipRow_lt _ _⟩ h)
            + X6 (ix2 ⟨(clipRow (X3 (ix3 β ⟨32 * qi.val + q'.val, by omega⟩ (0 : Fin 1))) (X4 (ix3 β ⟨128 * ki.val + k'.val, by omega⟩ (0 : Fin 1)))).toNat, clipRow_lt _ _⟩ h))
            + X7 (ix2 ⟨(clipRow (X4 (ix3 β ⟨32 * qi.val + q'.val, by omega⟩ (0 : Fin 1))) (X3 (ix3 β ⟨128 * ki.val + k'.val, by omega⟩ (0 : Fin 1)))).toNat, clipRow_lt _ _⟩ h))
            + X8 (ix2 ⟨(clipRow (X4 (ix3 β ⟨32 * qi.val + q'.val, by omega⟩ (0 : Fin 1))) (X4 (ix3 β ⟨128 * ki.val + k'.val, by omega⟩ (0 : Fin 1)))).toNat, clipRow_lt _ _⟩ h))
            + X9 (ix1 h)) 0 := by
  unfold blockOut
  rw [ld_tab X5, ld_tab X6, ld_tab X7, ld_tab X8, ld_bias X9]
  refine (pay1_apply _ _ _ _ X6 X7 X8 X9 q' k' h
    ⟨(clipRow (X3 (ix3 β ⟨32 * qi.val + q'.val, by omega⟩ (0 : Fin 1))) (X4 (ix3 β ⟨128 * ki.val + k'.val, by omega⟩ (0 : Fin 1)))).toNat, clipRow_lt _ _⟩
    ⟨(clipRow (X4 (ix3 β ⟨32 * qi.val + q'.val, by omega⟩ (0 : Fin 1))) (X3 (ix3 β ⟨128 * ki.val + k'.val, by omega⟩ (0 : Fin 1)))).toNat, clipRow_lt _ _⟩
    ⟨(clipRow (X4 (ix3 β ⟨32 * qi.val + q'.val, by omega⟩ (0 : Fin 1))) (X4 (ix3 β ⟨128 * ki.val + k'.val, by omega⟩ (0 : Fin 1)))).toNat, clipRow_lt _ _⟩
    ?_ ?_ ?_).trans ?_
  · intro r
    refine pay11_apply _ _ q' k' _ ?_ r
    rw [pay7_apply, pay5_apply, posQ_apply i β qi hβ hq, posK_apply i β ki hβ hk]
  · rw [pay8_apply, pay3_apply, pay4_apply, posQ_apply i β qi hβ hq, posK_apply i β ki hβ hk]
  · rw [pay9_apply, pay4_apply, pay5_apply, posQ_apply i β qi hβ hq, posK_apply i β ki hβ hk]
  · refine congrArg (fun x : EReal => max ((((x + _) + _) + _) + _) 0) ?_
    refine pay10_apply _ X5 q' k' h _ ?_
    rw [pay6_apply, posQ_apply i β qi hβ hq, posK_apply i β ki hβ hk]

end Cert.Proof.KI

end
-- ==== Proof.KernelIdeal.Value.lean ====
/-
  The kernel's result array is the function `G` of the argument arrays.

  What a grid point `(β, qi, ki)` writes back is the block of `G` at the box `[β] × [32·qi, +32) × [128·ki, +128) × [0, 128)`:
  the stored block's entry `(0, q', k', h)` is, by the body's arithmetic, the maximum with zero of the four selected rows of the
  staged tables at column `h` plus the bias; the staged position arrays are the arguments' (reshaped), and a staged table's
  row `r` at column `h` is the argument table's row `r` against the weight's band: one table's term of `G`. The rows are the
  clipped shifted relative positions of `q = 32·qi + q'` and `k = 128·ki + k'`, which is `G` at `(β, q, k, h)`. The boxes tile the
  result, so after the run the array is `G`.
-/
import proofs.«425181_j23141283790923_4_alg».proof.Proof.KernelIdeal.Blocks
import proofs.«425181_j23141283790923_4_alg».proof.Proof.KernelIdeal.HostValue
import proofs.«425181_j23141283790923_4_alg».proof.Proof.KernelIdeal.BlockValue
import proofs.«425181_j23141283790923_4_alg».proof.Proof.Spec

noncomputable section

namespace Cert.Proof.KI

open Cert.KernelIdeal Cert.KernelIdeal.Gen Cert.RelPos
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- `G` of core `c`'s argument arrays. -/
abbrev Gm (c : Dev nD) : S2x384x384x128.Idx → EReal :=
  G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- Where the output block's entry `(0, q', k', h)` sits in the result at point `t`. -/
theorem emb7 (t : Fin cfg0.N) (q' : Fin 32) (k' : Fin 128) (h : Fin 128)
    (h0 : (grid0.coords t 0).val < 2) (h1 : (grid0.coords t 1).val < 12) (h2 : (grid0.coords t 2).val < 3) :
    ((cfg0.win 7).blk t).view.emb (ix4 (0 : Fin 1) q' k' h)
      = ix4 (⟨(grid0.coords t 0).val, h0⟩ : Fin 2) (⟨32 * (grid0.coords t 1).val + q'.val, by omega⟩ : Fin 384)
          (⟨128 * (grid0.coords t 2).val + k'.val, by omega⟩ : Fin 384) h := by
  obtain ⟨e0, e1, e2, e3⟩ := idx_out t
  funext a; apply Fin.ext
  match a with
  | ⟨0, _⟩ => show win0_7.index t (0 : Fin 4) * 1 + 1 * 0 = (grid0.coords t 0).val; omega
  | ⟨1, _⟩ => show win0_7.index t (1 : Fin 4) * 32 + 1 * q'.val = 32 * (grid0.coords t 1).val + q'.val; omega
  | ⟨2, _⟩ => show win0_7.index t (2 : Fin 4) * 128 + 1 * k'.val = 128 * (grid0.coords t 2).val + k'.val; omega
  | ⟨3, _⟩ => show win0_7.index t (3 : Fin 4) * 128 + 1 * h.val = h.val; omega

/-- What point `t` writes back is block `t` of `G` of the argument arrays. -/
theorem flushed7_eq (c : Dev nD) (t : Fin cfg0.N) :
    (dats m 0 c).flushed 7 t = ((cfg0.win 7).blk t).view.read (Elt Ideal) (Gm m c) := by
  show (cfg0.win 7).cut (grid0.coords t) ((dats m 0 c).after 7 t) = _
  rw [after0_7, iblk0, iblk1, iblk2, iblk3, iblk4, iblk5, iblk6]
  funext j
  show blockOut (F := Ideal) (grid0.coords t) (V m c main_v0) (V m c main_v1) (V m c main_v15) (V m c main_v17) (V m c main_v19)
      (V m c main_v21) (V m c main_arg7) j = Gm m c (((cfg0.win 7).blk t).view.emb j)
  obtain ⟨z, q', k', h, rfl⟩ : ∃ (z : Fin 1) (q' : Fin 32) (k' : Fin 128) (h : Fin 128), j = ix4 z q' k' h :=
    ⟨j 0, j 1, j 2, j 3, eq_ix4 j⟩
  obtain rfl : z = 0 := Subsingleton.elim _ _
  have h0 : (grid0.coords t 0).val < 2 := (grid0.coords t 0).isLt
  have h1 : (grid0.coords t 1).val < 12 := (grid0.coords t 1).isLt
  have h2 : (grid0.coords t 2).val < 3 := (grid0.coords t 2).isLt
  rw [blockOut_apply (grid0.coords t) ⟨_, h0⟩ ⟨_, h1⟩ ⟨_, h2⟩ rfl rfl rfl, emb7 t q' k' h h0 h1 h2]
  show _ = G _ _ _ _ _ _ _ _ (ix4 _ _ _ _)
  rw [G_ix4]
  unfold Gat row
  rw [V_pos0, V_pos0, V_pos1, V_pos1, V_tab0, V_tab1, V_tab2, V_tab3, V_main_arg7]

/-- The result array after the run. -/
theorem final7 (c : Dev nD) : (dats m 0 c).arrAt 7 cfg0.N = Gm m c :=
  (dats m 0 c).arrAt_eq_of_cover 7 (Gm m c) (fun t _ => flushed7_eq m c t) cover7

/-- The run, read: every weakly fair execution of @main terminates with the result at `G` of the argument arrays and the
    argument arrays unchanged. -/
theorem run : θ_run defs (onTc (τ := τ) (main (F := Ideal))) ⟨m, fun _ => 0, ρ⟩ (fun r => ∀ c : Dev nD,
      r.2.mem ((c.tc : Thread nD τ).loc main_v22) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c)))⟩)
    (run_main m ρ)

end Cert.Proof.KI

end
-- ==== Proof.PreDecode.lean ====
/-
  From the precondition to the range of the relative positions.

  The precondition's last four conjuncts say, each as `jnp.all` over `[2, 384, 384]`, that a difference of positions
  `a[β, q] − b[β, k]` (32-bit, wrapping) lies in `[−383, 383]` read signed, for the four pairs (start, start), (start, end),
  (end, start), (end, end). Decoded here at an index.
-/
import proofs.«425181_j23141283790923_4_alg».proof.Pre_finite_inputs
import proofs.«425181_j23141283790923_4_alg».proof.Proof.Spec
import Idealize.ShloMosaic.Lib.ReduceAll
import Idealize.ShloMosaic.Lib.StableHlo.Predicate
import Idealize.ShloMosaic.Lib.Pipeline.Value

noncomputable section

namespace Cert.RelPos

open Idealize.ShloMosaic Idealize.ShloMosaic.ValueIdx Cert.Pre_finite_inputs

variable [Cert.Pre_finite_inputs.Facts] {F : FTy → Type} [FloatOps F]

/-- The scalar shape has one index. -/
private theorem subsingleton_scalarIdx : Subsingleton S_.Idx := ⟨fun _ _ => funext fun d => d.elim0⟩

/-- A position vector laid along the middle axis (`a[:, :, None]`, constant along the last axis) reads, at `(β, q, k)`,
    the vector at `(β, q)`. -/
private theorem bcast_q (a : IVec S2x384 32) (β : Fin 2) (q k : Fin 384) :
    broadcastInDim S2x384x384 ![0, 1, 2] Facts.bcast_S2x384x1_S2x384x384_0_1_2
      (broadcastInDim S2x384x1 ![0, 1] Facts.bcast_S2x384_S2x384x1_0_1 a) (ix3 β q k) = a (ix2 β q) := by
  rw [broadcastInDim_apply _ _ _ (ix3 β q k) (ix3 β q (0 : Fin 1)) ?_, broadcastInDim_apply _ _ _ _ (ix2 β q) ?_]
  · intro d
    match d with
    | ⟨0, _⟩ => rfl
    | ⟨1, _⟩ => rfl
  · intro d
    match d with
    | ⟨0, _⟩ => rfl
    | ⟨1, _⟩ => rfl
    | ⟨2, _⟩ => rfl

/-- A position vector laid along the last axis (`b[:, None, :]`, constant along the middle axis) reads, at `(β, q, k)`,
    the vector at `(β, k)`. -/
private theorem bcast_k (b : IVec S2x384 32) (β : Fin 2) (q k : Fin 384) :
    broadcastInDim S2x384x384 ![0, 1, 2] Facts.bcast_S2x1x384_S2x384x384_0_1_2
      (broadcastInDim S2x1x384 ![0, 2] Facts.bcast_S2x384_S2x1x384_0_2 b) (ix3 β q k) = b (ix2 β k) := by
  rw [broadcastInDim_apply _ _ _ (ix3 β q k) (ix3 β (0 : Fin 1) k) ?_, broadcastInDim_apply _ _ _ _ (ix2 β k) ?_]
  · intro d
    match d with
    | ⟨0, _⟩ => rfl
    | ⟨1, _⟩ => rfl
  · intro d
    match d with
    | ⟨0, _⟩ => rfl
    | ⟨1, _⟩ => rfl
    | ⟨2, _⟩ => rfl

/-- One conjunct read back: if the `and`-reduction over all of `[2, 384, 384]` of `−383 ≤ d ∧ d ≤ 383`, with
    `d[β, q, k] = a[β, q] − b[β, k]`, is 1, then every difference is in range. -/
private theorem inRange_of_all (a b : IVec S2x384 32) (init : IVec S_ 1)
    (e : Host.reduce IntOp.andi
      (andi
        (cmpi .sge
          (subi
            (broadcastInDim S2x384x384 ![0, 1, 2] Facts.bcast_S2x384x1_S2x384x384_0_1_2
              (broadcastInDim S2x384x1 ![0, 1] Facts.bcast_S2x384_S2x384x1_0_1 a))
            (broadcastInDim S2x384x384 ![0, 1, 2] Facts.bcast_S2x1x384_S2x384x384_0_1_2
              (broadcastInDim S2x1x384 ![0, 2] Facts.bcast_S2x384_S2x1x384_0_2 b)))
          (broadcastInDim S2x384x384 ![] Facts.bcast_S_S2x384x384 (constantI S_ 32 4294966913#32)))
        (cmpi .sle
          (subi
            (broadcastInDim S2x384x384 ![0, 1, 2] Facts.bcast_S2x384x1_S2x384x384_0_1_2
              (broadcastInDim S2x384x1 ![0, 1] Facts.bcast_S2x384_S2x384x1_0_1 a))
            (broadcastInDim S2x384x384 ![0, 1, 2] Facts.bcast_S2x1x384_S2x384x384_0_1_2
              (broadcastInDim S2x1x384 ![0, 2] Facts.bcast_S2x384_S2x1x384_0_2 b)))
          (broadcastInDim S2x384x384 ![] Facts.bcast_S_S2x384x384 (constantI S_ 32 383#32))))
      init Facts.reducesTo_S2x384x384_S_d0_1_2 Facts.h_S_ ix0 = 1#1)
    (β : Fin 2) (q k : Fin 384) : InRange (a (ix2 β q)) (b (ix2 β k)) := by
  haveI := subsingleton_scalarIdx
  have h1 := Host.reduce_andi_all _ _ _ _ _ e (ix3 β q k)
  obtain ⟨hge, hle⟩ := IntOp.andi_eq_one.1 h1
  change IntOp.cmpi .sge
    (IntOp.subi
      (broadcastInDim S2x384x384 ![0, 1, 2] Facts.bcast_S2x384x1_S2x384x384_0_1_2
        (broadcastInDim S2x384x1 ![0, 1] Facts.bcast_S2x384_S2x384x1_0_1 a) (ix3 β q k))
      (broadcastInDim S2x384x384 ![0, 1, 2] Facts.bcast_S2x1x384_S2x384x384_0_1_2
        (broadcastInDim S2x1x384 ![0, 2] Facts.bcast_S2x384_S2x1x384_0_2 b) (ix3 β q k)))
    4294966913#32 = 1#1 at hge
  change IntOp.cmpi .sle
    (IntOp.subi
      (broadcastInDim S2x384x384 ![0, 1, 2] Facts.bcast_S2x384x1_S2x384x384_0_1_2
        (broadcastInDim S2x384x1 ![0, 1] Facts.bcast_S2x384_S2x384x1_0_1 a) (ix3 β q k))
      (broadcastInDim S2x384x384 ![0, 1, 2] Facts.bcast_S2x1x384_S2x384x384_0_1_2
        (broadcastInDim S2x1x384 ![0, 2] Facts.bcast_S2x384_S2x1x384_0_2 b) (ix3 β q k)))
    383#32 = 1#1 at hle
  rw [bcast_q, bcast_k, IntOp.cmpi_sge, show (4294966913#32 : BitVec 32).toInt = -383 from by decide] at hge
  rw [bcast_q, bcast_k, IntOp.cmpi_sle, show (383#32 : BitVec 32).toInt = 383 from by decide] at hle
  exact ⟨hge, hle⟩

/-- Under the precondition every one of the four relative positions at `(β, q, k)` is in range. -/
theorem inRange_of_pre (x0 x1 : IVec S2x384 32) (x2 x3 x4 x5 : FVec F S769x128 .f32) (x6 : FVec F S128x512 .f32)
    (x7 : FVec F S128 .f32) (h : Cert.Pre_finite_inputs.fn (F := F) x0 x1 x2 x3 x4 x5 x6 x7 = fun _ => 1#1)
    (β : Fin 2) (q k : Fin 384) :
    InRange (x0 (ix2 β q)) (x0 (ix2 β k)) ∧ InRange (x0 (ix2 β q)) (x1 (ix2 β k))
      ∧ InRange (x1 (ix2 β q)) (x0 (ix2 β k)) ∧ InRange (x1 (ix2 β q)) (x1 (ix2 β k)) := by
  have h0 := congrFun h ix0
  dsimp only [fn, fn_part1, fn_part2, fn_part3, fn_part4] at h0
  obtain ⟨h0, e4⟩ := IntOp.andi_eq_one.1 h0
  obtain ⟨h0, e3⟩ := IntOp.andi_eq_one.1 h0
  obtain ⟨h0, e2⟩ := IntOp.andi_eq_one.1 h0
  obtain ⟨-, e1⟩ := IntOp.andi_eq_one.1 h0
  exact ⟨inRange_of_all x0 x0 _ e1 β q k, inRange_of_all x0 x1 _ e2 β q k, inRange_of_all x1 x0 _ e3 β q k,
    inRange_of_all x1 x1 _ e4 β q k⟩

end Cert.RelPos

end
-- ==== Proof.RefValue.lean ====
/-
  The reference computes the function `G`.

  The reference forms the four shifted relative positions `[2, 384, 384]`, normalises a negative index by adding 769, gathers
  rows of the four tables (the gather clamps the row into `[0, 768]`), joins the four `[…, 128]` results along the last axis
  into `[…, 512]`, contracts that axis with `W`'s second axis, adds the bias and takes the maximum with zero. With every
  relative position in `[−383, 383]` the normalisation and the clamp are the identity and the row is the clipped row of the
  specification; the contraction over 512 columns is the four 128-column sums.
-/
import proofs.«425181_j23141283790923_4_alg».proof.Proof.Gen.ReferenceIdeal.Read
import proofs.«425181_j23141283790923_4_alg».proof.Proof.Spec
import Idealize.ShloMosaic.Lib.ValueIdx
import Idealize.ShloMosaic.Lib.Pipeline.Value
import Idealize.ShloMosaic.PureOps.Ideal.Laws

noncomputable section

open scoped BigOperators

namespace Cert.RelPos

open Idealize.ShloMosaic Idealize.ShloMosaic.ValueIdx Cert.ReferenceIdeal Cert.ReferenceIdeal.Read

/-! ## A row gather read at an index

A gather of whole rows of a `[769, 128]` table at start indices `[2, 384, 384, 1]`: the result's element `(β, q, k, f)` is the
table's at the row the start index `(β, q, k, 0)` names, read signed and clamped into `[0, 768]`, and column `f`. -/

section Pure
variable {α : Type}

/-- The dimension numbers of a row gather: the table's axis 0 is collapsed and named by the start index, its axis 1 is
    the result's last axis. -/
abbrev rowDims (wf : GatherDims.WF ⟨2, ![769, 128]⟩ ⟨4, ![2, 384, 384, 1]⟩ ⟨4, ![2, 384, 384, 128]⟩ [3] [0] [] [0] [] 3 ![1, 128]) :
    GatherDims ⟨2, ![769, 128]⟩ ⟨4, ![2, 384, 384, 1]⟩ ⟨4, ![2, 384, 384, 128]⟩ where
  offsetDims := [3]
  collapsedSliceDims := [0]
  operandBatchingDims := []
  startIndicesBatchingDims := []
  startIndexMap := [0]
  indexVectorDim := 3
  sliceSizes := ![1, 128]
  wf := wf

/-- The row gather at `(β, q, k, f)`: row `min (start index, signed, floored at 0) 768`, column `f`. -/
theorem gather_row_apply {w : Nat}
    (wf : GatherDims.WF ⟨2, ![769, 128]⟩ ⟨4, ![2, 384, 384, 1]⟩ ⟨4, ![2, 384, 384, 128]⟩ [3] [0] [] [0] [] 3 ![1, 128])
    (x : (⟨2, ![769, 128]⟩ : Shape).Idx → α) (idx : IVec ⟨4, ![2, 384, 384, 1]⟩ w)
    (β : Fin 2) (q k : Fin 384) (f : Fin 128) :
    Host.gather (rowDims wf) x idx (ix4 β q k f)
      = x (ix2 ⟨min (idx (ix4 β q k (0 : Fin 1))).toInt.toNat 768, by omega⟩ f) := by
  unfold Host.gather
  congr 1
  funext a
  refine Fin.ext ?_
  match a with
  | ⟨0, _⟩ =>
    show (rowDims wf).start (ix4 β q k f) idx 0 + (rowDims wf).batchCoord (ix4 β q k f) 0 + (rowDims wf).offCoord (ix4 β q k f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix4 β q k f) ⟨List.idxOf (0 : Fin 2) (rowDims wf).startIndexMap,
        List.idxOf_lt_length_iff.2 (List.mem_singleton.mpr rfl)⟩ = ix4 β q k (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowDims wf).start (ix4 β q k f) idx 1 + (rowDims wf).batchCoord (ix4 β q k f) 1 + (rowDims wf).offCoord (ix4 β q k f) 1 = _
    rw [GatherDims.batchCoord_eq_zero _ _ _ List.not_mem_nil]
    unfold GatherDims.start
    rw [dif_neg (show ¬ (1 : Fin 2) ∈ (rowDims wf).startIndexMap from fun h => absurd (List.mem_singleton.mp h) (by decide))]
    simp only [Nat.zero_add]
    unfold GatherDims.offCoord
    rw [dif_pos (show (1 : Fin 2) ∈ (rowDims wf).sKept from
      (GatherDims.mem_sKept _ _).2 ⟨fun h => absurd (List.mem_singleton.mp h) (by decide), List.not_mem_nil⟩)]
    rfl

/-- The same with the clamped row given as a row `r` of the table. -/
theorem gather_row_apply' {w : Nat}
    (wf : GatherDims.WF ⟨2, ![769, 128]⟩ ⟨4, ![2, 384, 384, 1]⟩ ⟨4, ![2, 384, 384, 128]⟩ [3] [0] [] [0] [] 3 ![1, 128])
    (x : (⟨2, ![769, 128]⟩ : Shape).Idx → α) (idx : IVec ⟨4, ![2, 384, 384, 1]⟩ w)
    (β : Fin 2) (q k : Fin 384) (f : Fin 128) (r : Fin 769)
    (hr : min (idx (ix4 β q k (0 : Fin 1))).toInt.toNat 768 = r.val) :
    Host.gather (rowDims wf) x idx (ix4 β q k f) = x (ix2 r f) := by
  obtain ⟨n, hn⟩ := r
  replace hr : min (idx (ix4 β q k (0 : Fin 1))).toInt.toNat 768 = n := hr
  subst hr
  exact gather_row_apply wf x idx β q k f

/-! ## Four `[…, 128]` arrays joined along the last axis, read at an index

Column `128·j + f` of the joined array is column `f` of the `j`-th piece. -/

theorem concat4_piece0 (y0 y1 y2 y3 : (⟨4, ![2, 384, 384, 128]⟩ : Shape).Idx → α)
    (h : Shape.Concatenates [(⟨4, ![2, 384, 384, 128]⟩ : Shape), ⟨4, ![2, 384, 384, 128]⟩, ⟨4, ![2, 384, 384, 128]⟩, ⟨4, ![2, 384, 384, 128]⟩]
      ⟨4, ![2, 384, 384, 512]⟩ 3)
    (β : Fin 2) (q k : Fin 384) (c : Fin 512) (f : Fin 128) (hc : c.val = f.val) :
    concatenate (⟨4, ![2, 384, 384, 512]⟩ : Shape) 3
        [⟨(⟨4, ![2, 384, 384, 128]⟩ : Shape), y0⟩, ⟨(⟨4, ![2, 384, 384, 128]⟩ : Shape), y1⟩,
          ⟨(⟨4, ![2, 384, 384, 128]⟩ : Shape), y2⟩, ⟨(⟨4, ![2, 384, 384, 128]⟩ : Shape), y3⟩] h (ix4 β q k c)
      = y0 (ix4 β q k f) := by
  refine concatenate_apply_piece (t := ⟨4, ![2, 384, 384, 512]⟩) (3 : Fin 4)
    [⟨(⟨4, ![2, 384, 384, 128]⟩ : Shape), y0⟩, ⟨(⟨4, ![2, 384, 384, 128]⟩ : Shape), y1⟩,
      ⟨(⟨4, ![2, 384, 384, 128]⟩ : Shape), y2⟩, ⟨(⟨4, ![2, 384, 384, 128]⟩ : Shape), y3⟩]
    h (ix4 β q k c) 0 (show (0 : Nat) < 4 by decide) ⟨4, ![2, 384, 384, 128]⟩ y0 rfl rfl 0 rfl
    (ix4 β q k f) ?_ ?_
  · intro b hb
    match b with
    | ⟨0, _⟩ => rfl
    | ⟨1, _⟩ => rfl
    | ⟨2, _⟩ => rfl
    | ⟨3, _⟩ => exact absurd rfl hb
  · show 0 + f.val = c.val
    omega

theorem concat4_piece1 (y0 y1 y2 y3 : (⟨4, ![2, 384, 384, 128]⟩ : Shape).Idx → α)
    (h : Shape.Concatenates [(⟨4, ![2, 384, 384, 128]⟩ : Shape), ⟨4, ![2, 384, 384, 128]⟩, ⟨4, ![2, 384, 384, 128]⟩, ⟨4, ![2, 384, 384, 128]⟩]
      ⟨4, ![2, 384, 384, 512]⟩ 3)
    (β : Fin 2) (q k : Fin 384) (c : Fin 512) (f : Fin 128) (hc : c.val = 128 + f.val) :
    concatenate (⟨4, ![2, 384, 384, 512]⟩ : Shape) 3
        [⟨(⟨4, ![2, 384, 384, 128]⟩ : Shape), y0⟩, ⟨(⟨4, ![2, 384, 384, 128]⟩ : Shape), y1⟩,
          ⟨(⟨4, ![2, 384, 384, 128]⟩ : Shape), y2⟩, ⟨(⟨4, ![2, 384, 384, 128]⟩ : Shape), y3⟩] h (ix4 β q k c)
      = y1 (ix4 β q k f) := by
  refine concatenate_apply_piece (t := ⟨4, ![2, 384, 384, 512]⟩) (3 : Fin 4)
    [⟨(⟨4, ![2, 384, 384, 128]⟩ : Shape), y0⟩, ⟨(⟨4, ![2, 384, 384, 128]⟩ : Shape), y1⟩,
      ⟨(⟨4, ![2, 384, 384, 128]⟩ : Shape), y2⟩, ⟨(⟨4, ![2, 384, 384, 128]⟩ : Shape), y3⟩]
    h (ix4 β q k c) 1 (show (1 : Nat) < 4 by decide) ⟨4, ![2, 384, 384, 128]⟩ y1 rfl rfl 128 rfl
    (ix4 β q k f) ?_ ?_
  · intro b hb
    match b with
    | ⟨0, _⟩ => rfl
    | ⟨1, _⟩ => rfl
    | ⟨2, _⟩ => rfl
    | ⟨3, _⟩ => exact absurd rfl hb
  · show 128 + f.val = c.val
    omega

theorem concat4_piece2 (y0 y1 y2 y3 : (⟨4, ![2, 384, 384, 128]⟩ : Shape).Idx → α)
    (h : Shape.Concatenates [(⟨4, ![2, 384, 384, 128]⟩ : Shape), ⟨4, ![2, 384, 384, 128]⟩, ⟨4, ![2, 384, 384, 128]⟩, ⟨4, ![2, 384, 384, 128]⟩]
      ⟨4, ![2, 384, 384, 512]⟩ 3)
    (β : Fin 2) (q k : Fin 384) (c : Fin 512) (f : Fin 128) (hc : c.val = 256 + f.val) :
    concatenate (⟨4, ![2, 384, 384, 512]⟩ : Shape) 3
        [⟨(⟨4, ![2, 384, 384, 128]⟩ : Shape), y0⟩, ⟨(⟨4, ![2, 384, 384, 128]⟩ : Shape), y1⟩,
          ⟨(⟨4, ![2, 384, 384, 128]⟩ : Shape), y2⟩, ⟨(⟨4, ![2, 384, 384, 128]⟩ : Shape), y3⟩] h (ix4 β q k c)
      = y2 (ix4 β q k f) := by
  refine concatenate_apply_piece (t := ⟨4, ![2, 384, 384, 512]⟩) (3 : Fin 4)
    [⟨(⟨4, ![2, 384, 384, 128]⟩ : Shape), y0⟩, ⟨(⟨4, ![2, 384, 384, 128]⟩ : Shape), y1⟩,
      ⟨(⟨4, ![2, 384, 384, 128]⟩ : Shape), y2⟩, ⟨(⟨4, ![2, 384, 384, 128]⟩ : Shape), y3⟩]
    h (ix4 β q k c) 2 (show (2 : Nat) < 4 by decide) ⟨4, ![2, 384, 384, 128]⟩ y2 rfl rfl 256 rfl
    (ix4 β q k f) ?_ ?_
  · intro b hb
    match b with
    | ⟨0, _⟩ => rfl
    | ⟨1, _⟩ => rfl
    | ⟨2, _⟩ => rfl
    | ⟨3, _⟩ => exact absurd rfl hb
  · show 256 + f.val = c.val
    omega

theorem concat4_piece3 (y0 y1 y2 y3 : (⟨4, ![2, 384, 384, 128]⟩ : Shape).Idx → α)
    (h : Shape.Concatenates [(⟨4, ![2, 384, 384, 128]⟩ : Shape), ⟨4, ![2, 384, 384, 128]⟩, ⟨4, ![2, 384, 384, 128]⟩, ⟨4, ![2, 384, 384, 128]⟩]
      ⟨4, ![2, 384, 384, 512]⟩ 3)
    (β : Fin 2) (q k : Fin 384) (c : Fin 512) (f : Fin 128) (hc : c.val = 384 + f.val) :
    concatenate (⟨4, ![2, 384, 384, 512]⟩ : Shape) 3
        [⟨(⟨4, ![2, 384, 384, 128]⟩ : Shape), y0⟩, ⟨(⟨4, ![2, 384, 384, 128]⟩ : Shape), y1⟩,
          ⟨(⟨4, ![2, 384, 384, 128]⟩ : Shape), y2⟩, ⟨(⟨4, ![2, 384, 384, 128]⟩ : Shape), y3⟩] h (ix4 β q k c)
      = y3 (ix4 β q k f) := by
  refine concatenate_apply_piece (t := ⟨4, ![2, 384, 384, 512]⟩) (3 : Fin 4)
    [⟨(⟨4, ![2, 384, 384, 128]⟩ : Shape), y0⟩, ⟨(⟨4, ![2, 384, 384, 128]⟩ : Shape), y1⟩,
      ⟨(⟨4, ![2, 384, 384, 128]⟩ : Shape), y2⟩, ⟨(⟨4, ![2, 384, 384, 128]⟩ : Shape), y3⟩]
    h (ix4 β q k c) 3 (show (3 : Nat) < 4 by decide) ⟨4, ![2, 384, 384, 128]⟩ y3 rfl rfl 384 rfl
    (ix4 β q k f) ?_ ?_
  · intro b hb
    match b with
    | ⟨0, _⟩ => rfl
    | ⟨1, _⟩ => rfl
    | ⟨2, _⟩ => rfl
    | ⟨3, _⟩ => exact absurd rfl hb
  · show 384 + f.val = c.val
    omega

end Pure

/-! ## The four 128-column bands of the weight -/

theorem W_idx_congr (W : Wt) (h : Fin 128) (c c' : Fin 512) (e : c.val = c'.val) : W (ix2 h c) = W (ix2 h c') := by
  rw [Fin.ext e]

theorem proj_band0 (t : Tab) (W : Wt) (r : Fin 769) (h : Fin 128) :
    proj t W 0 r h = ∑ f : Fin 128, t (ix2 r f) * W (ix2 h ⟨f.val, by have := f.isLt; omega⟩) := by
  unfold proj
  refine Finset.sum_congr rfl fun f _ => ?_
  exact congrArg (fun z => t (ix2 r f) * z) (W_idx_congr W h _ _ (by show 128 * 0 + f.val = f.val; omega))

theorem proj_band1 (t : Tab) (W : Wt) (r : Fin 769) (h : Fin 128) :
    proj t W 1 r h = ∑ f : Fin 128, t (ix2 r f) * W (ix2 h ⟨128 + f.val, by have := f.isLt; omega⟩) := by
  unfold proj
  refine Finset.sum_congr rfl fun f _ => ?_
  exact congrArg (fun z => t (ix2 r f) * z) (W_idx_congr W h _ _ (by show 128 * 1 + f.val = 128 + f.val; omega))

theorem proj_band2 (t : Tab) (W : Wt) (r : Fin 769) (h : Fin 128) :
    proj t W 2 r h = ∑ f : Fin 128, t (ix2 r f) * W (ix2 h ⟨256 + f.val, by have := f.isLt; omega⟩) := by
  unfold proj
  refine Finset.sum_congr rfl fun f _ => ?_
  exact congrArg (fun z => t (ix2 r f) * z) (W_idx_congr W h _ _ (by show 128 * 2 + f.val = 256 + f.val; omega))

theorem proj_band3 (t : Tab) (W : Wt) (r : Fin 769) (h : Fin 128) :
    proj t W 3 r h = ∑ f : Fin 128, t (ix2 r f) * W (ix2 h ⟨384 + f.val, by have := f.isLt; omega⟩) := by
  unfold proj
  refine Finset.sum_congr rfl fun f _ => ?_
  exact congrArg (fun z => t (ix2 r f) * z) (W_idx_congr W h _ _ (by show 128 * 3 + f.val = 384 + f.val; omega))

/-! ## The index normalisation and the clamp are the identity in range -/

/-- A shifted relative position in range is not negative, so `i < 0 ↦ i + 769` leaves it alone. -/
theorem norm_id {a b : BitVec 32} (hab : InRange a b) (y : BitVec 32) :
    Scalar.select (IntOp.cmpi .slt (shifted a b) 0#32) y (shifted a b) = shifted a b := by
  have hc : IntOp.cmpi .slt (shifted a b) 0#32 = 0#1 := by
    show BitVec.ofBool ((shifted a b).slt 0#32) = 0#1
    rw [shifted_not_neg hab]; rfl
  rw [hc, select_zero]

theorem row_val (a b : BitVec 32) : (row a b).val = (clipRow a b).toNat := by
  unfold row; rfl

/-- A row gather whose start index at `(β, q, k, 0)` is a shifted relative position in range reads the specification's
    row. -/
theorem gather_row_of_inRange {α : Type}
    (wf : GatherDims.WF ⟨2, ![769, 128]⟩ ⟨4, ![2, 384, 384, 1]⟩ ⟨4, ![2, 384, 384, 128]⟩ [3] [0] [] [0] [] 3 ![1, 128])
    (x : (⟨2, ![769, 128]⟩ : Shape).Idx → α) (idx : IVec ⟨4, ![2, 384, 384, 1]⟩ 32)
    (β : Fin 2) (q k : Fin 384) (f : Fin 128) (a b : BitVec 32) (hab : InRange a b)
    (hidx : idx (ix4 β q k (0 : Fin 1)) = shifted a b) :
    Host.gather (rowDims wf) x idx (ix4 β q k f) = x (ix2 (row a b) f) :=
  gather_row_apply' wf x idx β q k f (row a b) (by rw [hidx, row_val]; exact shifted_toInt hab)

/-! ## The reference's four index arrays and gathers at coordinates -/

/-- The shifted relative position of pair 0 at `(β, q, k)`. -/
theorem v6_at (x0 : (⟨S2x384, .i32⟩ : BufTy).Contents (Elt Ideal)) (β : Fin 2) (q k : Fin 384) :
    val_main_v6 (F := Ideal) x0 (ix3 β q k) = shifted (x0 (ix2 β q)) (x0 (ix2 β k)) := by
  rw [val_main_v6_apply, val_main_v4_apply, val_main_v2_apply, val_main_v0_apply,
    val_main_v3_apply, val_main_v1_apply, val_main_v5_apply, val_main_c_apply]
  have e1 : idx_main_v0 (idx_main_v2 (ix3 β q k)) = ix2 β q := by
    funext a; match a with | ⟨0, _⟩ => rfl | ⟨1, _⟩ => rfl
  have e2 : idx_main_v1 (idx_main_v3 (ix3 β q k)) = ix2 β k := by
    funext a; match a with | ⟨0, _⟩ => rfl | ⟨1, _⟩ => rfl
  rw [e1, e2]
  rfl

/-- In range, the normalised start index of pair 0 at `(β, q, k, 0)` is the shifted relative position. -/
theorem v33_at (x0 : (⟨S2x384, .i32⟩ : BufTy).Contents (Elt Ideal)) (β : Fin 2) (q k : Fin 384) (hab : InRange (x0 (ix2 β q)) (x0 (ix2 β k))) :
    val_main_v33 (F := Ideal) x0 (ix4 β q k (0 : Fin 1)) = shifted (x0 (ix2 β q)) (x0 (ix2 β k)) := by
  rw [val_main_v33_apply]
  have e : idx_main_v33 (ix4 β q k (0 : Fin 1)) = ix3 β q k := by
    funext a; match a with | ⟨0, _⟩ => rfl | ⟨1, _⟩ => rfl | ⟨2, _⟩ => rfl
  rw [e, val_main_v32_apply, val_main_v29_apply, val_main_v28_apply, val_main_c_3_apply, v6_at]
  exact norm_id hab _

/-- In range, the gather of pair 0 at `(β, q, k, f)` is the table at the specification's row. -/
theorem v34_at (x0 : (⟨S2x384, .i32⟩ : BufTy).Contents (Elt Ideal)) (x2 : (⟨S769x128, .f32⟩ : BufTy).Contents (Elt Ideal)) (β : Fin 2) (q k : Fin 384) (f : Fin 128)
    (hab : InRange (x0 (ix2 β q)) (x0 (ix2 β k))) :
    val_main_v34 (F := Ideal) x0 x2 (ix4 β q k f) = x2 (ix2 (row (x0 (ix2 β q)) (x0 (ix2 β k))) f) := by
  unfold val_main_v34
  exact gather_row_of_inRange _ x2 (val_main_v33 (F := Ideal) x0) β q k f _ _ hab (v33_at x0 β q k hab)

/-- The shifted relative position of pair 1 at `(β, q, k)`. -/
theorem v13_at (x0 x1 : (⟨S2x384, .i32⟩ : BufTy).Contents (Elt Ideal)) (β : Fin 2) (q k : Fin 384) :
    val_main_v13 (F := Ideal) x0 x1 (ix3 β q k) = shifted (x0 (ix2 β q)) (x1 (ix2 β k)) := by
  rw [val_main_v13_apply, val_main_v11_apply, val_main_v9_apply, val_main_v7_apply,
    val_main_v10_apply, val_main_v8_apply, val_main_v12_apply, val_main_c_0_apply]
  have e1 : idx_main_v7 (idx_main_v9 (ix3 β q k)) = ix2 β q := by
    funext a; match a with | ⟨0, _⟩ => rfl | ⟨1, _⟩ => rfl
  have e2 : idx_main_v8 (idx_main_v10 (ix3 β q k)) = ix2 β k := by
    funext a; match a with | ⟨0, _⟩ => rfl | ⟨1, _⟩ => rfl
  rw [e1, e2]
  rfl

/-- In range, the normalised start index of pair 1 at `(β, q, k, 0)` is the shifted relative position. -/
theorem v40_at (x0 x1 : (⟨S2x384, .i32⟩ : BufTy).Contents (Elt Ideal)) (β : Fin 2) (q k : Fin 384) (hab : InRange (x0 (ix2 β q)) (x1 (ix2 β k))) :
    val_main_v40 (F := Ideal) x0 x1 (ix4 β q k (0 : Fin 1)) = shifted (x0 (ix2 β q)) (x1 (ix2 β k)) := by
  rw [val_main_v40_apply]
  have e : idx_main_v40 (ix4 β q k (0 : Fin 1)) = ix3 β q k := by
    funext a; match a with | ⟨0, _⟩ => rfl | ⟨1, _⟩ => rfl | ⟨2, _⟩ => rfl
  rw [e, val_main_v39_apply, val_main_v36_apply, val_main_v35_apply, val_main_c_5_apply, v13_at]
  exact norm_id hab _

/-- In range, the gather of pair 1 at `(β, q, k, f)` is the table at the specification's row. -/
theorem v41_at (x0 x1 : (⟨S2x384, .i32⟩ : BufTy).Contents (Elt Ideal)) (x3 : (⟨S769x128, .f32⟩ : BufTy).Contents (Elt Ideal)) (β : Fin 2) (q k : Fin 384) (f : Fin 128)
    (hab : InRange (x0 (ix2 β q)) (x1 (ix2 β k))) :
    val_main_v41 (F := Ideal) x0 x1 x3 (ix4 β q k f) = x3 (ix2 (row (x0 (ix2 β q)) (x1 (ix2 β k))) f) := by
  unfold val_main_v41
  exact gather_row_of_inRange _ x3 (val_main_v40 (F := Ideal) x0 x1) β q k f _ _ hab (v40_at x0 x1 β q k hab)

/-- The shifted relative position of pair 2 at `(β, q, k)`. -/
theorem v20_at (x0 x1 : (⟨S2x384, .i32⟩ : BufTy).Contents (Elt Ideal)) (β : Fin 2) (q k : Fin 384) :
    val_main_v20 (F := Ideal) x0 x1 (ix3 β q k) = shifted (x1 (ix2 β q)) (x0 (ix2 β k)) := by
  rw [val_main_v20_apply, val_main_v18_apply, val_main_v16_apply, val_main_v14_apply,
    val_main_v17_apply, val_main_v15_apply, val_main_v19_apply, val_main_c_1_apply]
  have e1 : idx_main_v14 (idx_main_v16 (ix3 β q k)) = ix2 β q := by
    funext a; match a with | ⟨0, _⟩ => rfl | ⟨1, _⟩ => rfl
  have e2 : idx_main_v15 (idx_main_v17 (ix3 β q k)) = ix2 β k := by
    funext a; match a with | ⟨0, _⟩ => rfl | ⟨1, _⟩ => rfl
  rw [e1, e2]
  rfl

/-- In range, the normalised start index of pair 2 at `(β, q, k, 0)` is the shifted relative position. -/
theorem v47_at (x0 x1 : (⟨S2x384, .i32⟩ : BufTy).Contents (Elt Ideal)) (β : Fin 2) (q k : Fin 384) (hab : InRange (x1 (ix2 β q)) (x0 (ix2 β k))) :
    val_main_v47 (F := Ideal) x0 x1 (ix4 β q k (0 : Fin 1)) = shifted (x1 (ix2 β q)) (x0 (ix2 β k)) := by
  rw [val_main_v47_apply]
  have e : idx_main_v47 (ix4 β q k (0 : Fin 1)) = ix3 β q k := by
    funext a; match a with | ⟨0, _⟩ => rfl | ⟨1, _⟩ => rfl | ⟨2, _⟩ => rfl
  rw [e, val_main_v46_apply, val_main_v43_apply, val_main_v42_apply, val_main_c_7_apply, v20_at]
  exact norm_id hab _

/-- In range, the gather of pair 2 at `(β, q, k, f)` is the table at the specification's row. -/
theorem v48_at (x0 x1 : (⟨S2x384, .i32⟩ : BufTy).Contents (Elt Ideal)) (x4 : (⟨S769x128, .f32⟩ : BufTy).Contents (Elt Ideal)) (β : Fin 2) (q k : Fin 384) (f : Fin 128)
    (hab : InRange (x1 (ix2 β q)) (x0 (ix2 β k))) :
    val_main_v48 (F := Ideal) x0 x1 x4 (ix4 β q k f) = x4 (ix2 (row (x1 (ix2 β q)) (x0 (ix2 β k))) f) := by
  unfold val_main_v48
  exact gather_row_of_inRange _ x4 (val_main_v47 (F := Ideal) x0 x1) β q k f _ _ hab (v47_at x0 x1 β q k hab)

/-- The shifted relative position of pair 3 at `(β, q, k)`. -/
theorem v27_at (x1 : (⟨S2x384, .i32⟩ : BufTy).Contents (Elt Ideal)) (β : Fin 2) (q k : Fin 384) :
    val_main_v27 (F := Ideal) x1 (ix3 β q k) = shifted (x1 (ix2 β q)) (x1 (ix2 β k)) := by
  rw [val_main_v27_apply, val_main_v25_apply, val_main_v23_apply, val_main_v21_apply,
    val_main_v24_apply, val_main_v22_apply, val_main_v26_apply, val_main_c_2_apply]
  have e1 : idx_main_v21 (idx_main_v23 (ix3 β q k)) = ix2 β q := by
    funext a; match a with | ⟨0, _⟩ => rfl | ⟨1, _⟩ => rfl
  have e2 : idx_main_v22 (idx_main_v24 (ix3 β q k)) = ix2 β k := by
    funext a; match a with | ⟨0, _⟩ => rfl | ⟨1, _⟩ => rfl
  rw [e1, e2]
  rfl

/-- In range, the normalised start index of pair 3 at `(β, q, k, 0)` is the shifted relative position. -/
theorem v54_at (x1 : (⟨S2x384, .i32⟩ : BufTy).Contents (Elt Ideal)) (β : Fin 2) (q k : Fin 384) (hab : InRange (x1 (ix2 β q)) (x1 (ix2 β k))) :
    val_main_v54 (F := Ideal) x1 (ix4 β q k (0 : Fin 1)) = shifted (x1 (ix2 β q)) (x1 (ix2 β k)) := by
  rw [val_main_v54_apply]
  have e : idx_main_v54 (ix4 β q k (0 : Fin 1)) = ix3 β q k := by
    funext a; match a with | ⟨0, _⟩ => rfl | ⟨1, _⟩ => rfl | ⟨2, _⟩ => rfl
  rw [e, val_main_v53_apply, val_main_v50_apply, val_main_v49_apply, val_main_c_9_apply, v27_at]
  exact norm_id hab _

/-- In range, the gather of pair 3 at `(β, q, k, f)` is the table at the specification's row. -/
theorem v55_at (x1 : (⟨S2x384, .i32⟩ : BufTy).Contents (Elt Ideal)) (x5 : (⟨S769x128, .f32⟩ : BufTy).Contents (Elt Ideal)) (β : Fin 2) (q k : Fin 384) (f : Fin 128)
    (hab : InRange (x1 (ix2 β q)) (x1 (ix2 β k))) :
    val_main_v55 (F := Ideal) x1 x5 (ix4 β q k f) = x5 (ix2 (row (x1 (ix2 β q)) (x1 (ix2 β k))) f) := by
  unfold val_main_v55
  exact gather_row_of_inRange _ x5 (val_main_v54 (F := Ideal) x1) β q k f _ _ hab (v54_at x1 β q k hab)

/-! ## The joined array's four bands -/

theorem v56_piece0 (x0 x1 : (⟨S2x384, .i32⟩ : BufTy).Contents (Elt Ideal)) (x2 x3 x4 x5 : (⟨S769x128, .f32⟩ : BufTy).Contents (Elt Ideal)) (β : Fin 2) (q k : Fin 384) (c : Fin 512) (f : Fin 128) (hc : c.val = f.val) :
    val_main_v56 (F := Ideal) x0 x1 x2 x3 x4 x5 (ix4 β q k c) = val_main_v34 (F := Ideal) x0 x2 (ix4 β q k f) := by
  unfold val_main_v56
  exact concat4_piece0 _ _ _ _ _ β q k c f hc

theorem v56_piece1 (x0 x1 : (⟨S2x384, .i32⟩ : BufTy).Contents (Elt Ideal)) (x2 x3 x4 x5 : (⟨S769x128, .f32⟩ : BufTy).Contents (Elt Ideal)) (β : Fin 2) (q k : Fin 384) (c : Fin 512) (f : Fin 128) (hc : c.val = 128 + f.val) :
    val_main_v56 (F := Ideal) x0 x1 x2 x3 x4 x5 (ix4 β q k c) = val_main_v41 (F := Ideal) x0 x1 x3 (ix4 β q k f) := by
  unfold val_main_v56
  exact concat4_piece1 _ _ _ _ _ β q k c f hc

theorem v56_piece2 (x0 x1 : (⟨S2x384, .i32⟩ : BufTy).Contents (Elt Ideal)) (x2 x3 x4 x5 : (⟨S769x128, .f32⟩ : BufTy).Contents (Elt Ideal)) (β : Fin 2) (q k : Fin 384) (c : Fin 512) (f : Fin 128) (hc : c.val = 256 + f.val) :
    val_main_v56 (F := Ideal) x0 x1 x2 x3 x4 x5 (ix4 β q k c) = val_main_v48 (F := Ideal) x0 x1 x4 (ix4 β q k f) := by
  unfold val_main_v56
  exact concat4_piece2 _ _ _ _ _ β q k c f hc

theorem v56_piece3 (x0 x1 : (⟨S2x384, .i32⟩ : BufTy).Contents (Elt Ideal)) (x2 x3 x4 x5 : (⟨S769x128, .f32⟩ : BufTy).Contents (Elt Ideal)) (β : Fin 2) (q k : Fin 384) (c : Fin 512) (f : Fin 128) (hc : c.val = 384 + f.val) :
    val_main_v56 (F := Ideal) x0 x1 x2 x3 x4 x5 (ix4 β q k c) = val_main_v55 (F := Ideal) x1 x5 (ix4 β q k f) := by
  unfold val_main_v56
  exact concat4_piece3 _ _ _ _ _ β q k c f hc

/-- Band 0 of the contraction: the joined array's columns `0 … 127` against the weight's are table 0's term. -/
theorem band0 (x0 x1 : (⟨S2x384, .i32⟩ : BufTy).Contents (Elt Ideal)) (x2 x3 x4 x5 : (⟨S769x128, .f32⟩ : BufTy).Contents (Elt Ideal)) (x6 : (⟨S128x512, .f32⟩ : BufTy).Contents (Elt Ideal)) (β : Fin 2) (q k : Fin 384) (h : Fin 128)
    (hab : InRange (x0 (ix2 β q)) (x0 (ix2 β k))) :
    (∑ f : Fin 128, val_main_v56 (F := Ideal) x0 x1 x2 x3 x4 x5 (ix4 β q k ⟨f.val, by have := f.isLt; omega⟩)
        * x6 (ix2 h ⟨f.val, by have := f.isLt; omega⟩))
      = proj x2 x6 0 (row (x0 (ix2 β q)) (x0 (ix2 β k))) h := by
  rw [proj_band0]
  refine Finset.sum_congr rfl fun f _ => ?_
  rw [v56_piece0 x0 x1 x2 x3 x4 x5 β q k _ f rfl, v34_at x0 x2 β q k f hab]

/-- Band 1 of the contraction: the joined array's columns `128 … 255` against the weight's are table 1's term. -/
theorem band1 (x0 x1 : (⟨S2x384, .i32⟩ : BufTy).Contents (Elt Ideal)) (x2 x3 x4 x5 : (⟨S769x128, .f32⟩ : BufTy).Contents (Elt Ideal)) (x6 : (⟨S128x512, .f32⟩ : BufTy).Contents (Elt Ideal)) (β : Fin 2) (q k : Fin 384) (h : Fin 128)
    (hab : InRange (x0 (ix2 β q)) (x1 (ix2 β k))) :
    (∑ f : Fin 128, val_main_v56 (F := Ideal) x0 x1 x2 x3 x4 x5 (ix4 β q k ⟨128 + f.val, by have := f.isLt; omega⟩)
        * x6 (ix2 h ⟨128 + f.val, by have := f.isLt; omega⟩))
      = proj x3 x6 1 (row (x0 (ix2 β q)) (x1 (ix2 β k))) h := by
  rw [proj_band1]
  refine Finset.sum_congr rfl fun f _ => ?_
  rw [v56_piece1 x0 x1 x2 x3 x4 x5 β q k _ f rfl, v41_at x0 x1 x3 β q k f hab]

/-- Band 2 of the contraction: the joined array's columns `256 … 383` against the weight's are table 2's term. -/
theorem band2 (x0 x1 : (⟨S2x384, .i32⟩ : BufTy).Contents (Elt Ideal)) (x2 x3 x4 x5 : (⟨S769x128, .f32⟩ : BufTy).Contents (Elt Ideal)) (x6 : (⟨S128x512, .f32⟩ : BufTy).Contents (Elt Ideal)) (β : Fin 2) (q k : Fin 384) (h : Fin 128)
    (hab : InRange (x1 (ix2 β q)) (x0 (ix2 β k))) :
    (∑ f : Fin 128, val_main_v56 (F := Ideal) x0 x1 x2 x3 x4 x5 (ix4 β q k ⟨256 + f.val, by have := f.isLt; omega⟩)
        * x6 (ix2 h ⟨256 + f.val, by have := f.isLt; omega⟩))
      = proj x4 x6 2 (row (x1 (ix2 β q)) (x0 (ix2 β k))) h := by
  rw [proj_band2]
  refine Finset.sum_congr rfl fun f _ => ?_
  rw [v56_piece2 x0 x1 x2 x3 x4 x5 β q k _ f rfl, v48_at x0 x1 x4 β q k f hab]

/-- Band 3 of the contraction: the joined array's columns `384 … 511` against the weight's are table 3's term. -/
theorem band3 (x0 x1 : (⟨S2x384, .i32⟩ : BufTy).Contents (Elt Ideal)) (x2 x3 x4 x5 : (⟨S769x128, .f32⟩ : BufTy).Contents (Elt Ideal)) (x6 : (⟨S128x512, .f32⟩ : BufTy).Contents (Elt Ideal)) (β : Fin 2) (q k : Fin 384) (h : Fin 128)
    (hab : InRange (x1 (ix2 β q)) (x1 (ix2 β k))) :
    (∑ f : Fin 128, val_main_v56 (F := Ideal) x0 x1 x2 x3 x4 x5 (ix4 β q k ⟨384 + f.val, by have := f.isLt; omega⟩)
        * x6 (ix2 h ⟨384 + f.val, by have := f.isLt; omega⟩))
      = proj x5 x6 3 (row (x1 (ix2 β q)) (x1 (ix2 β k))) h := by
  rw [proj_band3]
  refine Finset.sum_congr rfl fun f _ => ?_
  rw [v56_piece3 x0 x1 x2 x3 x4 x5 β q k _ f rfl, v55_at x1 x5 β q k f hab]

/-! ## The reference's result at coordinates -/

theorem ref_at (x0 x1 : (⟨S2x384, .i32⟩ : BufTy).Contents (Elt Ideal)) (x2 x3 x4 x5 : (⟨S769x128, .f32⟩ : BufTy).Contents (Elt Ideal))
    (x6 : (⟨S128x512, .f32⟩ : BufTy).Contents (Elt Ideal)) (x7 : (⟨S128, .f32⟩ : BufTy).Contents (Elt Ideal))
    (hR : ∀ (β : Fin 2) (q k : Fin 384), InRange (x0 (ix2 β q)) (x0 (ix2 β k)) ∧ InRange (x0 (ix2 β q)) (x1 (ix2 β k))
      ∧ InRange (x1 (ix2 β q)) (x0 (ix2 β k)) ∧ InRange (x1 (ix2 β q)) (x1 (ix2 β k)))
    (β : Fin 2) (q k : Fin 384) (h : Fin 128) :
    val_main_v61 (F := Ideal) x0 x1 x2 x3 x4 x5 x6 x7 (ix4 β q k h) = Gat x0 x1 x2 x3 x4 x5 x6 x7 β q k h := by
  obtain ⟨h0, h1, h2, h3⟩ := hR β q k
  rw [val_main_v61_apply, val_main_v60_apply, val_main_v57_apply, val_main_v59_apply, val_main_v58_apply,
    val_main_call0_v0_apply, val_main_call0_cst_apply]
  have hl : ∀ kk : Fin 512, lidx_main_v57 (ix4 β q k h) kk = ix4 β q k kk := fun kk => by
    funext a; match a with | ⟨0, _⟩ => rfl | ⟨1, _⟩ => rfl | ⟨2, _⟩ => rfl | ⟨3, _⟩ => rfl
  have hr : ∀ kk : Fin 512, ridx_main_v57 (ix4 β q k h) kk = ix2 h kk := fun kk => by
    funext a; match a with | ⟨0, _⟩ => rfl | ⟨1, _⟩ => rfl
  have hb : idx_main_v58 (idx_main_v59 (ix4 β q k h)) = ix1 h := by
    funext a; match a with | ⟨0, _⟩ => rfl
  have hsum : (∑ kk : Fin 512, val_main_v56 (F := Ideal) x0 x1 x2 x3 x4 x5 (lidx_main_v57 (ix4 β q k h) kk)
        * x6 (ridx_main_v57 (ix4 β q k h) kk))
      = ((proj x2 x6 0 (row (x0 (ix2 β q)) (x0 (ix2 β k))) h + proj x3 x6 1 (row (x0 (ix2 β q)) (x1 (ix2 β k))) h)
          + proj x4 x6 2 (row (x1 (ix2 β q)) (x0 (ix2 β k))) h) + proj x5 x6 3 (row (x1 (ix2 β q)) (x1 (ix2 β k))) h := by
    have e : (∑ kk : Fin 512, val_main_v56 (F := Ideal) x0 x1 x2 x3 x4 x5 (lidx_main_v57 (ix4 β q k h) kk)
          * x6 (ridx_main_v57 (ix4 β q k h) kk))
        = ∑ kk : Fin 512, val_main_v56 (F := Ideal) x0 x1 x2 x3 x4 x5 (ix4 β q k kk) * x6 (ix2 h kk) :=
      Finset.sum_congr rfl fun kk _ => by rw [hl kk, hr kk]
    rw [e, sum_512]
    exact congrArg₂ (· + ·) (congrArg₂ (· + ·) (congrArg₂ (· + ·)
      (band0 x0 x1 x2 x3 x4 x5 x6 β q k h h0) (band1 x0 x1 x2 x3 x4 x5 x6 β q k h h1))
      (band2 x0 x1 x2 x3 x4 x5 x6 β q k h h2)) (band3 x0 x1 x2 x3 x4 x5 x6 β q k h h3)
  rw [hsum, hb]
  show max (_ + x7 (ix1 h)) (Ideal.ofBits .f32 0x00000000#32) = _
  rw [Ideal.ofBits_zero_f32]
  rfl

/-- The reference's result, as Read's last stage states it, is `G` of the argument arrays when every relative position is
    in range. -/
theorem ref_eq_G (x0 x1 : (⟨S2x384, .i32⟩ : BufTy).Contents (Elt Ideal)) (x2 x3 x4 x5 : (⟨S769x128, .f32⟩ : BufTy).Contents (Elt Ideal))
    (x6 : (⟨S128x512, .f32⟩ : BufTy).Contents (Elt Ideal)) (x7 : (⟨S128, .f32⟩ : BufTy).Contents (Elt Ideal))
    (hR : ∀ (β : Fin 2) (q k : Fin 384), InRange (x0 (ix2 β q)) (x0 (ix2 β k)) ∧ InRange (x0 (ix2 β q)) (x1 (ix2 β k))
      ∧ InRange (x1 (ix2 β q)) (x0 (ix2 β k)) ∧ InRange (x1 (ix2 β q)) (x1 (ix2 β k))) :
    val_main_v61 (F := Ideal) x0 x1 x2 x3 x4 x5 x6 x7 = G x0 x1 x2 x3 x4 x5 x6 x7 := by
  funext i
  obtain ⟨β, q, k, h, rfl⟩ : ∃ (β : Fin 2) (q k : Fin 384) (h : Fin 128), i = ix4 β q k h := ⟨_, _, _, _, eq_ix4 i⟩
  rw [G_ix4]
  exact ref_at x0 x1 x2 x3 x4 x5 x6 x7 hR β q k h

end Cert.RelPos

end
-- ==== Proof.lean ====
/-
  Relative-position embedding with a fused linear layer and ReLU: the kernel and its reference compute one function.

  Inputs: start and end positions `ps pe : [2, 384]` (32-bit integers), four tables `t0 … t3 : [769, 128]`, a weight
  `W : [128, 512]`, a bias `b : [128]`. Both programs return `out : [2, 384, 384, 128]`,

      out[β, q, k, h] = max (((P₀ + P₁) + P₂) + P₃ + b[h]) 0,     Pⱼ = Σ_{f < 128} tⱼ[rowⱼ, f] · W[h, 128·j + f],

  the rows being the four relative positions (start/end of `q` minus start/end of `k`) shifted by 384 (`Proof/Spec.lean`).

  The reference gathers the four table rows, joins them into 512 columns and contracts with `W`'s rows. The kernel folds
  `W`'s four 128-column bands into the tables before the region (`t · Wⱼᵀ`, a row gather commutes with a linear map), trims
  the folded tables to 768 rows, and inside the region selects a row by contracting the indicator of the row number with the
  table; it clips the row into `[0, 767]` first. On the extended reals the contraction with an indicator is the row itself
  (`0 · x = 0` and `1 · x = x` for every `x`), a sum over 512 columns is four sums over 128, and a change of float format
  is the identity, so no finiteness of the inputs is used. What IS used is the range of the relative positions: the
  precondition bounds every difference by 383 in absolute value, so the shifted difference lies in `[1, 767]`, where the
  kernel's clip, the reference's wrap of negative indices and the gather's clamp are all the identity. (At a difference of
  384 the reference reads row 768, which the kernel's trimmed tables do not hold.)

  The frames: each program runs to the end without a fault and leaves its arguments unchanged — for the kernel, at the
  word-level and at the exact instance, by running the body at a symbolic grid point (`Proof/Kernel/Body.lean`,
  `Proof/KernelIdeal/Body.lean`); for the reference, its run with the result dropped.
-/
import proofs.«425181_j23141283790923_4_alg».proof.Defs
import proofs.«425181_j23141283790923_4_alg».proof.Proof.Gen.Kernel
import proofs.«425181_j23141283790923_4_alg».proof.Proof.Gen.KernelIdeal
import proofs.«425181_j23141283790923_4_alg».proof.Proof.Gen.ReferenceIdeal
import proofs.«425181_j23141283790923_4_alg».proof.Proof.Gen.Pre_finite_inputs
import proofs.«425181_j23141283790923_4_alg».proof.Proof.Gen.ReferenceIdeal.Run
import proofs.«425181_j23141283790923_4_alg».proof.Proof.Gen.ReferenceIdeal.Read
import proofs.«425181_j23141283790923_4_alg».proof.Proof.Kernel.Body
import proofs.«425181_j23141283790923_4_alg».proof.Proof.KernelIdeal.Value
import proofs.«425181_j23141283790923_4_alg».proof.Proof.PreDecode
import proofs.«425181_j23141283790923_4_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Proof.K.frame (F := Bits) m ρ

/-- The kernel at the exact instance runs and keeps its arguments. -/
theorem frame_ki : Cert.frame_KernelIdeal := fun m ρ _ => Cert.Proof.KI.frame (F := Ideal) m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact-instance kernel is the printed kernel read at the exact instance: nothing was rewritten. -/
theorem preserves : Cert.preserves_Kernel_KernelIdeal := trivial

/-- From memories that agree on the arguments, the kernel's result array is `G` of the arguments (the blocks the grid
    points write back tile it) and the reference's result is `G` of the same arguments (its last stage, under the range
    the precondition gives). -/
theorem algebraic : Cert.algebraic_KernelIdeal_ReferenceIdeal := by
  intro m ρ m' ρ' hpre hagree
  refine ⟨fun c => Cert.Proof.KI.Gm m c, Cert.Proof.KI.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v61_eq, a0, a1, a2, a3, a4, a5, a6, a7]
  exact Cert.RelPos.ref_eq_G _ _ _ _ _ _ _ _ (fun β q k => Cert.RelPos.inRange_of_pre _ _ _ _ _ _ _ _ (hpre c) β q k)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
